-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S10000x128 : Shape := ⟨2, ![10000, 128]⟩
abbrev S10000x1 : Shape := ⟨2, ![10000, 1]⟩
abbrev S1x128 : Shape := ⟨2, ![1, 128]⟩
abbrev S100000x256 : Shape := ⟨2, ![100000, 256]⟩

abbrev nBuf : Space → Nat
  | .hbm => 83
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x128, .f32⟩
  | .hbm, ⟨74, _⟩ => ⟨S1700000x1, .f32⟩
  | .hbm, ⟨75, _⟩ => ⟨S1700000x128, .f32⟩
  | .hbm, ⟨76, _⟩ => ⟨S_, .f32⟩
  | .hbm, ⟨77, _⟩ => ⟨S100000x128, .f32⟩
  | .hbm, ⟨78, _⟩ => ⟨S1700000x1, .i32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x256, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S10000x128, .f32⟩
  | .local _ .vmem, ⟨22, _⟩ => ⟨S10000x128, .f32⟩
  | .local _ .vmem, ⟨23, _⟩ => ⟨S10000x1, .f32⟩
  | .local _ .vmem, ⟨24, _⟩ => ⟨S10000x1, .f32⟩
  | .local _ .vmem, ⟨25, _⟩ => ⟨S10000x128, .f32⟩
  | .local _ .vmem, ⟨26, _⟩ => ⟨S10000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![170], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1700000_S1700000x1 : S1700000.ShapeCasts S1700000x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  concatenates_S100000x128_S100000x128_S100000x256_d1 : Shape.Concatenates [S100000x128, S100000x128] S100000x256 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1700000x128.size a
  hwx1_0 : ∀ i : grid1.Coords, EltTy.bits .f32 = 32 ∨ (Rect.block (s := S1700000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1700000x1.size a
  hwx1_1 : ∀ i : grid1.Coords, EltTy.bits .f32 = 32 ∨ (Rect.block (s := S1700000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S1700000x128.size a
  hwx1_2 : ∀ i : grid1.Coords, EltTy.bits .f32 = 32 ∨ (Rect.block (s := S1700000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S1700000x128.size a
  hwx4_0 : ∀ i : grid4.Coords, EltTy.bits .f32 = 32 ∨ (Rect.block (s := S1700000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1700000x1.size a
  hwx4_1 : ∀ i : grid4.Coords, EltTy.bits .f32 = 32 ∨ (Rect.block (s := S1700000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S1700000x128.size a
  hwx4_2 : ∀ i : grid4.Coords, EltTy.bits .f32 = 32 ∨ (Rect.block (s := S1700000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v52) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v54) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v57) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v59) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x256 : Shape := ⟨2, ![100000, 256]⟩

abbrev nBuf : Space → Nat
  | .hbm => 93
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x1, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | .hbm, ⟨92, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_v65 : Ref sig .tc := ⟨.hbm, 91, rfl⟩
abbrev main_v66 : Ref sig .tc := ⟨.hbm, 92, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x256_d1 : Shape.Concatenates [S100000x128, S100000x128] S100000x256 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.RefChunks.lean ====
import proofs.«175264_j42640435314985_1_alg».proof.Proof.Gen.ReferenceIdeal
import proofs.«175264_j42640435314985_1_alg».proof.Proof.RefRead
import Idealize.ShloMosaic.Lib.StableHlo.Run

set_option maxRecDepth 16384

noncomputable section

/-!
  The reference's @main, cut into thirteen consecutive stretches, each read against the stages.

  The reference is 87 host operations. A stretch is cut where the next operation concatenates values the stretch before
  has finished, and around each of the two dense products; so every stretch is short, and what one of its result
  buffers holds afterwards is the stage of what the buffers it read held before. A buffer a stretch does not write it
  leaves alone. All of it holds for every float family.
-/

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-! ## The stretches -/

/-- The two rows of the edge array as lists, and the node numbers. -/
abbrev c0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0) ]
/-- The source and target lists with the self loops appended, the degrees, which are positive, and their inverse square roots. -/
abbrev c1 : List (HloOp τ sig (Elt F)) :=
  [ binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf (F := F) .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]
/-- The inverse square root where the degree is positive, zero elsewhere. -/
abbrev c2 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]
/-- The edge weights: the product of the two ends' selected values. -/
abbrev c3 : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v5 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v5 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v5 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]
/-- The first layer's linear map. -/
abbrev c4 : List (HloOp τ sig (Elt F)) :=
  [ binary main_arg0 main_arg2 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
/-- The first layer's messages: the rows gathered along the source list, times the edge weights. -/
abbrev c5 : List (HloOp τ sig (Elt F)) :=
  [ nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v5 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v5 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v5 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)) ]
/-- The first layer's messages summed into their target nodes. -/
abbrev c6 : List (HloOp τ sig (Elt F)) :=
  [ nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]
/-- The first layer's result: the bias added, and the larger of that and zero. -/
abbrev c7 : List (HloOp τ sig (Elt F)) :=
  [ unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]
/-- The second layer's linear map. -/
abbrev c8 : List (HloOp τ sig (Elt F)) :=
  [ binary main_v47 main_arg4 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
/-- The second layer's messages. -/
abbrev c9 : List (HloOp τ sig (Elt F)) :=
  [ nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v5 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v5 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v5 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x128 ![0, 1] bcast_S1700000x1_S1700000x128_0_1 : (⟨S1700000x1, .f32⟩ : BufTy).Contents (Elt F) → (⟨S1700000x128, .f32⟩ : BufTy).Contents (Elt F)),
    binary main_v55 main_v57 main_v58 (mulf : (⟨S1700000x128, .f32⟩ : BufTy).Contents (Elt F) → (⟨S1700000x128, .f32⟩ : BufTy).Contents (Elt F) → (⟨S1700000x128, .f32⟩ : BufTy).Contents (Elt F)) ]
/-- The second layer's messages summed into their target nodes. -/
abbrev c10 : List (HloOp τ sig (Elt F)) :=
  [ nullary main_cst_11 (constant S_ .f32 0x00000000#32),
    unary main_cst_11 main_v59 (broadcastInDim S100000x128 ![] bcast_S_S100000x128 : (⟨S_, .f32⟩ : BufTy).Contents (Elt F) → (⟨S100000x128, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]
/-- The second layer's result. -/
abbrev c11 : List (HloOp τ sig (Elt F)) :=
  [ unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v64) (TRef.of (T := ⟨S100000x128, .f32⟩) main_call2_v0) (TRef.of (T := ⟨S100000x128, .f32⟩) main_v65) maximumf ]
/-- The two layers' results side by side. -/
abbrev c12 : List (HloOp τ sig (Elt F)) :=
  [ binary main_v47 main_v65 main_v66 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)) ]

/-! ## What each stretch writes, and that it leaves everything else alone -/

variable (Wp : Valuation τ sig (Elt F))

/-- The references stretch 0 writes. -/
abbrev w0 : List (Ref sig .tc) := [main_v0, main_v1, main_v2, main_v3, main_v4]
theorem w0_sub : (c0 : List (HloOp τ sig (Elt F))).Forall fun op => op.writes ⊆ (w0.map (Proc.devRef (τ := τ) .tc)).toFinset := by
  simp only [List.Forall, nullary_writes, unary_writes, binary_writes, ternary_writes, quaternary_writes, reshape_writes, binaryIndexed_writes, Finset.singleton_subset_iff, List.mem_toFinset]
  repeat' apply And.intro
  all_goals exact List.mem_map_of_mem (by decide)
/-- A reference it does not write holds after it what it held before. -/
theorem keep0 (r : Ref sig .tc) (h : r ∉ w0) : after c0 Wp (Proc.devRef .tc r) = Wp (Proc.devRef .tc r) :=
  after_of_writes_sub c0 _ w0_sub h

/-- The references stretch 1 writes. -/
abbrev w1 : List (Ref sig .tc) := [main_v5, main_v6, main_cst, main_v7, main_cst_0, main_v8, main_v9, main_v10, main_cst_1, main_v11, main_v12, main_v13, main_cst_2]
theorem w1_sub : (c1 : List (HloOp τ sig (Elt F))).Forall fun op => op.writes ⊆ (w1.map (Proc.devRef (τ := τ) .tc)).toFinset := by
  simp only [List.Forall, nullary_writes, unary_writes, binary_writes, ternary_writes, quaternary_writes, reshape_writes, binaryIndexed_writes, Finset.singleton_subset_iff, List.mem_toFinset]
  repeat' apply And.intro
  all_goals exact List.mem_map_of_mem (by decide)
/-- A reference it does not write holds after it what it held before. -/
theorem keep1 (r : Ref sig .tc) (h : r ∉ w1) : after c1 Wp (Proc.devRef .tc r) = Wp (Proc.devRef .tc r) :=
  after_of_writes_sub c1 _ w1_sub h

/-- The references stretch 2 writes. -/
abbrev w2 : List (Ref sig .tc) := [main_call0_v0, main_call0_v1, main_v14]
theorem w2_sub : (c2 : List (HloOp τ sig (Elt F))).Forall fun op => op.writes ⊆ (w2.map (Proc.devRef (τ := τ) .tc)).toFinset := by
  simp only [List.Forall, nullary_writes, unary_writes, binary_writes, ternary_writes, quaternary_writes, reshape_writes, binaryIndexed_writes, Finset.singleton_subset_iff, List.mem_toFinset]
  repeat' apply And.intro
  all_goals exact List.mem_map_of_mem (by decide)
/-- A reference it does not write holds after it what it held before. -/
theorem keep2 (r : Ref sig .tc) (h : r ∉ w2) : after c2 Wp (Proc.devRef .tc r) = Wp (Proc.devRef .tc r) :=
  after_of_writes_sub c2 _ w2_sub h

/-- The references stretch 3 writes. -/
abbrev w3 : List (Ref sig .tc) := [main_c, main_v15, main_v16, main_c_3, main_v17, main_v18, main_v19, main_v20, main_v21, main_c_4, main_v22, main_v23, main_c_5, main_v24, main_v25, main_v26, main_v27, main_v28, main_v29]
theorem w3_sub : (c3 : List (HloOp τ sig (Elt F))).Forall fun op => op.writes ⊆ (w3.map (Proc.devRef (τ := τ) .tc)).toFinset := by
  simp only [List.Forall, nullary_writes, unary_writes, binary_writes, ternary_writes, quaternary_writes, reshape_writes, binaryIndexed_writes, Finset.singleton_subset_iff, List.mem_toFinset]
  repeat' apply And.intro
  all_goals exact List.mem_map_of_mem (by decide)
/-- A reference it does not write holds after it what it held before. -/
theorem keep3 (r : Ref sig .tc) (h : r ∉ w3) : after c3 Wp (Proc.devRef .tc r) = Wp (Proc.devRef .tc r) :=
  after_of_writes_sub c3 _ w3_sub h

/-- The references stretch 4 writes. -/
abbrev w4 : List (Ref sig .tc) := [main_v30]
theorem w4_sub : (c4 : List (HloOp τ sig (Elt F))).Forall fun op => op.writes ⊆ (w4.map (Proc.devRef (τ := τ) .tc)).toFinset := by
  simp only [List.Forall, nullary_writes, unary_writes, binary_writes, ternary_writes, quaternary_writes, reshape_writes, binaryIndexed_writes, Finset.singleton_subset_iff, List.mem_toFinset]
  exact List.mem_map_of_mem (by decide)
/-- A reference it does not write holds after it what it held before. -/
theorem keep4 (r : Ref sig .tc) (h : r ∉ w4) : after c4 Wp (Proc.devRef .tc r) = Wp (Proc.devRef .tc r) :=
  after_of_writes_sub c4 _ w4_sub h

/-- The references stretch 5 writes. -/
abbrev w5 : List (Ref sig .tc) := [main_c_6, main_v31, main_v32, main_c_7, main_v33, main_v34, main_v35, main_v36, main_v37, main_v38, main_v39, main_v40]
theorem w5_sub : (c5 : List (HloOp τ sig (Elt F))).Forall fun op => op.writes ⊆ (w5.map (Proc.devRef (τ := τ) .tc)).toFinset := by
  simp only [List.Forall, nullary_writes, unary_writes, binary_writes, ternary_writes, quaternary_writes, reshape_writes, binaryIndexed_writes, Finset.singleton_subset_iff, List.mem_toFinset]
  repeat' apply And.intro
  all_goals exact List.mem_map_of_mem (by decide)
/-- A reference it does not write holds after it what it held before. -/
theorem keep5 (r : Ref sig .tc) (h : r ∉ w5) : after c5 Wp (Proc.devRef .tc r) = Wp (Proc.devRef .tc r) :=
  after_of_writes_sub c5 _ w5_sub h

/-- The references stretch 6 writes. -/
abbrev w6 : List (Ref sig .tc) := [main_cst_8, main_v41, main_v42, main_v43]
theorem w6_sub : (c6 : List (HloOp τ sig (Elt F))).Forall fun op => op.writes ⊆ (w6.map (Proc.devRef (τ := τ) .tc)).toFinset := by
  simp only [List.Forall, nullary_writes, unary_writes, binary_writes, ternary_writes, quaternary_writes, reshape_writes, binaryIndexed_writes, Finset.singleton_subset_iff, List.mem_toFinset]
  repeat' apply And.intro
  all_goals exact List.mem_map_of_mem (by decide)
/-- A reference it does not write holds after it what it held before. -/
theorem keep6 (r : Ref sig .tc) (h : r ∉ w6) : after c6 Wp (Proc.devRef .tc r) = Wp (Proc.devRef .tc r) :=
  after_of_writes_sub c6 _ w6_sub h

/-- The references stretch 7 writes. -/
abbrev w7 : List (Ref sig .tc) := [main_v44, main_v45, main_v46, main_call1_cst, main_call1_v0, main_v47]
theorem w7_sub : (c7 : List (HloOp τ sig (Elt F))).Forall fun op => op.writes ⊆ (w7.map (Proc.devRef (τ := τ) .tc)).toFinset := by
  simp only [List.Forall, nullary_writes, unary_writes, binary_writes, ternary_writes, quaternary_writes, reshape_writes, binaryIndexed_writes, Finset.singleton_subset_iff, List.mem_toFinset]
  repeat' apply And.intro
  all_goals exact List.mem_map_of_mem (by decide)
/-- A reference it does not write holds after it what it held before. -/
theorem keep7 (r : Ref sig .tc) (h : r ∉ w7) : after c7 Wp (Proc.devRef .tc r) = Wp (Proc.devRef .tc r) :=
  after_of_writes_sub c7 _ w7_sub h

/-- The references stretch 8 writes. -/
abbrev w8 : List (Ref sig .tc) := [main_v48]
theorem w8_sub : (c8 : List (HloOp τ sig (Elt F))).Forall fun op => op.writes ⊆ (w8.map (Proc.devRef (τ := τ) .tc)).toFinset := by
  simp only [List.Forall, nullary_writes, unary_writes, binary_writes, ternary_writes, quaternary_writes, reshape_writes, binaryIndexed_writes, Finset.singleton_subset_iff, List.mem_toFinset]
  exact List.mem_map_of_mem (by decide)
/-- A reference it does not write holds after it what it held before. -/
theorem keep8 (r : Ref sig .tc) (h : r ∉ w8) : after c8 Wp (Proc.devRef .tc r) = Wp (Proc.devRef .tc r) :=
  after_of_writes_sub c8 _ w8_sub h

/-- The references stretch 9 writes. -/
abbrev w9 : List (Ref sig .tc) := [main_c_9, main_v49, main_v50, main_c_10, main_v51, main_v52, main_v53, main_v54, main_v55, main_v56, main_v57, main_v58]
theorem w9_sub : (c9 : List (HloOp τ sig (Elt F))).Forall fun op => op.writes ⊆ (w9.map (Proc.devRef (τ := τ) .tc)).toFinset := by
  simp only [List.Forall, nullary_writes, unary_writes, binary_writes, ternary_writes, quaternary_writes, reshape_writes, binaryIndexed_writes, Finset.singleton_subset_iff, List.mem_toFinset]
  repeat' apply And.intro
  all_goals exact List.mem_map_of_mem (by decide)
/-- A reference it does not write holds after it what it held before. -/
theorem keep9 (r : Ref sig .tc) (h : r ∉ w9) : after c9 Wp (Proc.devRef .tc r) = Wp (Proc.devRef .tc r) :=
  after_of_writes_sub c9 _ w9_sub h

/-- The references stretch 10 writes. -/
abbrev w10 : List (Ref sig .tc) := [main_cst_11, main_v59, main_v60, main_v61]
theorem w10_sub : (c10 : List (HloOp τ sig (Elt F))).Forall fun op => op.writes ⊆ (w10.map (Proc.devRef (τ := τ) .tc)).toFinset := by
  simp only [List.Forall, nullary_writes, unary_writes, binary_writes, ternary_writes, quaternary_writes, reshape_writes, binaryIndexed_writes, Finset.singleton_subset_iff, List.mem_toFinset]
  repeat' apply And.intro
  all_goals exact List.mem_map_of_mem (by decide)
/-- A reference it does not write holds after it what it held before. -/
theorem keep10 (r : Ref sig .tc) (h : r ∉ w10) : after c10 Wp (Proc.devRef .tc r) = Wp (Proc.devRef .tc r) :=
  after_of_writes_sub c10 _ w10_sub h

/-- The references stretch 11 writes. -/
abbrev w11 : List (Ref sig .tc) := [main_v62, main_v63, main_v64, main_call2_cst, main_call2_v0, main_v65]
theorem w11_sub : (c11 : List (HloOp τ sig (Elt F))).Forall fun op => op.writes ⊆ (w11.map (Proc.devRef (τ := τ) .tc)).toFinset := by
  simp only [List.Forall, nullary_writes, unary_writes, binary_writes, ternary_writes, quaternary_writes, reshape_writes, binaryIndexed_writes, Finset.singleton_subset_iff, List.mem_toFinset]
  repeat' apply And.intro
  all_goals exact List.mem_map_of_mem (by decide)
/-- A reference it does not write holds after it what it held before. -/
theorem keep11 (r : Ref sig .tc) (h : r ∉ w11) : after c11 Wp (Proc.devRef .tc r) = Wp (Proc.devRef .tc r) :=
  after_of_writes_sub c11 _ w11_sub h

/-- The references stretch 12 writes. -/
abbrev w12 : List (Ref sig .tc) := [main_v66]
theorem w12_sub : (c12 : List (HloOp τ sig (Elt F))).Forall fun op => op.writes ⊆ (w12.map (Proc.devRef (τ := τ) .tc)).toFinset := by
  simp only [List.Forall, nullary_writes, unary_writes, binary_writes, ternary_writes, quaternary_writes, reshape_writes, binaryIndexed_writes, Finset.singleton_subset_iff, List.mem_toFinset]
  exact List.mem_map_of_mem (by decide)
/-- A reference it does not write holds after it what it held before. -/
theorem keep12 (r : Ref sig .tc) (h : r ∉ w12) : after c12 Wp (Proc.devRef .tc r) = Wp (Proc.devRef .tc r) :=
  after_of_writes_sub c12 _ w12_sub h

/-! ## What each stretch computes -/

/-- The first row of the edge array as a list. -/
theorem r0_v1 (x1 : (⟨S2x1600000, .i32⟩ : BufTy).Contents (Elt F)) (h1 : Wp (Proc.devRef .tc main_arg1) = x1) :
    after c0 Wp (Proc.devRef .tc main_v1) = val_main_v1 x1 := by
  subst h1; after_results; rfl

/-- The second row of the edge array as a list. -/
theorem r0_v3 (x1 : (⟨S2x1600000, .i32⟩ : BufTy).Contents (Elt F)) (h1 : Wp (Proc.devRef .tc main_arg1) = x1) :
    after c0 Wp (Proc.devRef .tc main_v3) = val_main_v3 x1 := by
  subst h1; after_results; rfl

/-- The node numbers. -/
theorem r0_v4 :
    after c0 Wp (Proc.devRef .tc main_v4) = val_main_v4 (F := F) := by
  after_results; rfl

/-- The source list, the self loops appended. -/
theorem r1_v5 (x1 : (⟨S2x1600000, .i32⟩ : BufTy).Contents (Elt F)) (e1 : Wp (Proc.devRef .tc main_v1) = val_main_v1 x1) (e4 : Wp (Proc.devRef .tc main_v4) = val_main_v4 (F := F)) :
    after c1 Wp (Proc.devRef .tc main_v5) = val_main_v5 x1 := by
  after_results; rw [e1, e4]; rfl

/-- The target list, the self loops appended. -/
theorem r1_v6 (x1 : (⟨S2x1600000, .i32⟩ : BufTy).Contents (Elt F)) (e3 : Wp (Proc.devRef .tc main_v3) = val_main_v3 x1) (e4 : Wp (Proc.devRef .tc main_v4) = val_main_v4 (F := F)) :
    after c1 Wp (Proc.devRef .tc main_v6) = val_main_v6 x1 := by
  after_results; rw [e3, e4]; rfl

/-- Which nodes have a positive degree. -/
theorem r1_v12 (x1 : (⟨S2x1600000, .i32⟩ : BufTy).Contents (Elt F)) (e3 : Wp (Proc.devRef .tc main_v3) = val_main_v3 x1) (e4 : Wp (Proc.devRef .tc main_v4) = val_main_v4 (F := F)) :
    after c1 Wp (Proc.devRef .tc main_v12) = val_main_v12 x1 := by
  after_results; rw [e3, e4]; rfl

/-- The inverse square roots of the degrees. -/
theorem r1_v13 (x1 : (⟨S2x1600000, .i32⟩ : BufTy).Contents (Elt F)) (e3 : Wp (Proc.devRef .tc main_v3) = val_main_v3 x1) (e4 : Wp (Proc.devRef .tc main_v4) = val_main_v4 (F := F)) :
    after c1 Wp (Proc.devRef .tc main_v13) = val_main_v13 x1 := by
  after_results; rw [e3, e4]; rfl

/-- The zero that stands in where a degree is not positive. -/
theorem r1_cst2 :
    after c1 Wp (Proc.devRef .tc main_cst_2) = val_main_cst_2 (F := F) := by
  after_results; rfl

/-- The inverse square root where the degree is positive, zero elsewhere. -/
theorem r2_v14 (x1 : (⟨S2x1600000, .i32⟩ : BufTy).Contents (Elt F)) (e12 : Wp (Proc.devRef .tc main_v12) = val_main_v12 x1) (e13 : Wp (Proc.devRef .tc main_v13) = val_main_v13 x1) (ec : Wp (Proc.devRef .tc main_cst_2) = val_main_cst_2 (F := F)) :
    after c2 Wp (Proc.devRef .tc main_v14) = val_main_v14 x1 := by
  after_results
  show select (Wp (Proc.devRef .tc main_v12)) (Wp (Proc.devRef .tc main_v13))
      (broadcastInDim S100000 ![] bcast_S_S100000 (id (Wp (Proc.devRef .tc main_cst_2)))) = _
  rw [e12, e13, ec]; rfl

/-- The edge weights: the product of the two ends' selected values. -/
theorem r3_v29 (x1 : (⟨S2x1600000, .i32⟩ : BufTy).Contents (Elt F)) (e5 : Wp (Proc.devRef .tc main_v5) = val_main_v5 x1) (e6 : Wp (Proc.devRef .tc main_v6) = val_main_v6 x1) (e14 : Wp (Proc.devRef .tc main_v14) = val_main_v14 x1) :
    after c3 Wp (Proc.devRef .tc main_v29) = val_main_v29 x1 := by
  after_results_simp; rw [e5, e6, e14]; rfl

/-- The first layer's linear map. -/
theorem r4_v30 (x0 : (⟨S100000x128, .f32⟩ : BufTy).Contents (Elt F)) (x2 : (⟨S128x128, .f32⟩ : BufTy).Contents (Elt F)) (e0 : Wp (Proc.devRef .tc main_arg0) = x0) (e2 : Wp (Proc.devRef .tc main_arg2) = x2) :
    after c4 Wp (Proc.devRef .tc main_v30) = val_main_v30 x0 x2 := by
  subst e0 e2; after_results; rfl

/-- The first layer's messages. -/
theorem r5_v40 (x0 : (⟨S100000x128, .f32⟩ : BufTy).Contents (Elt F)) (x1 : (⟨S2x1600000, .i32⟩ : BufTy).Contents (Elt F)) (x2 : (⟨S128x128, .f32⟩ : BufTy).Contents (Elt F)) (e30 : Wp (Proc.devRef .tc main_v30) = val_main_v30 x0 x2) (e5 : Wp (Proc.devRef .tc main_v5) = val_main_v5 x1) (e29 : Wp (Proc.devRef .tc main_v29) = val_main_v29 x1) :
    after c5 Wp (Proc.devRef .tc main_v40) = val_main_v40 x0 x1 x2 := by
  after_results; rw [e30, e5, e29]; rfl

/-- The first layer's messages summed into their target nodes. -/
theorem r6_v43 (x0 : (⟨S100000x128, .f32⟩ : BufTy).Contents (Elt F)) (x1 : (⟨S2x1600000, .i32⟩ : BufTy).Contents (Elt F)) (x2 : (⟨S128x128, .f32⟩ : BufTy).Contents (Elt F)) (e40 : Wp (Proc.devRef .tc main_v40) = val_main_v40 x0 x1 x2) (e6 : Wp (Proc.devRef .tc main_v6) = val_main_v6 x1) :
    after c6 Wp (Proc.devRef .tc main_v43) = val_main_v43 x0 x1 x2 := by
  after_results; rw [e40, e6]; rfl

/-- The first layer's result. -/
theorem r7_v47 (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (e43 : Wp (Proc.devRef .tc main_v43) = val_main_v43 x0 x1 x2) (e3 : Wp (Proc.devRef .tc main_arg3) = x3) :
    after c7 Wp (Proc.devRef .tc main_v47) = val_main_v47 x0 x1 x2 x3 := by
  subst e3; after_results
  show maximumf (addf (Wp (Proc.devRef .tc main_v43)) (broadcastInDim S100000x128 ![0, 1] bcast_S1x128_S100000x128_0_1 (broadcastInDim S1x128 ![1] bcast_S128_S1x128_1 (Wp (Proc.devRef .tc main_arg3)))))
      (broadcastInDim S100000x128 ![] bcast_S_S100000x128 (constant S_ .f32 0x00000000#32)) = _
  rw [e43]; rfl

/-- The second layer's linear map. -/
theorem r8_v48 (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (e47 : Wp (Proc.devRef .tc main_v47) = val_main_v47 x0 x1 x2 x3) (e4 : Wp (Proc.devRef .tc main_arg4) = x4) :
    after c8 Wp (Proc.devRef .tc main_v48) = val_main_v48 x0 x1 x2 x3 x4 := by
  subst e4; after_results; rw [e47]; rfl

/-- The second layer's messages. -/
theorem r9_v58 (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (e48 : Wp (Proc.devRef .tc main_v48) = val_main_v48 x0 x1 x2 x3 x4) (e5 : Wp (Proc.devRef .tc main_v5) = val_main_v5 x1) (e29 : Wp (Proc.devRef .tc main_v29) = val_main_v29 x1) :
    after c9 Wp (Proc.devRef .tc main_v58) = val_main_v58 x0 x1 x2 x3 x4 := by
  after_results; rw [e48, e5, e29]; rfl

/-- The second layer's messages summed into their target nodes. -/
theorem r10_v61 (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (e58 : Wp (Proc.devRef .tc main_v58) = val_main_v58 x0 x1 x2 x3 x4) (e6 : Wp (Proc.devRef .tc main_v6) = val_main_v6 x1) :
    after c10 Wp (Proc.devRef .tc main_v61) = val_main_v61 x0 x1 x2 x3 x4 := by
  after_results; rw [e58, e6]; rfl

/-- The second layer's result. -/
theorem r11_v65 (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (e61 : Wp (Proc.devRef .tc main_v61) = val_main_v61 x0 x1 x2 x3 x4) (e5' : Wp (Proc.devRef .tc main_arg5) = x5) :
    after c11 Wp (Proc.devRef .tc main_v65) = val_main_v65 x0 x1 x2 x3 x4 x5 := by
  subst e5'; after_results
  show maximumf (addf (Wp (Proc.devRef .tc main_v61)) (broadcastInDim S100000x128 ![0, 1] bcast_S1x128_S100000x128_0_1 (broadcastInDim S1x128 ![1] bcast_S128_S1x128_1 (Wp (Proc.devRef .tc main_arg5)))))
      (broadcastInDim S100000x128 ![] bcast_S_S100000x128 (constant S_ .f32 0x00000000#32)) = _
  rw [e61]; rfl

/-- The two layers' results side by side. -/
theorem r12_v66 (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (e47 : Wp (Proc.devRef .tc main_v47) = val_main_v47 x0 x1 x2 x3) (e65 : Wp (Proc.devRef .tc main_v65) = val_main_v65 x0 x1 x2 x3 x4 x5) :
    after c12 Wp (Proc.devRef .tc main_v66) = val_main_v66 x0 x1 x2 x3 x4 x5 := by
  after_results; rw [e47, e65]; rfl

end Cert.ReferenceIdeal.RunH

end
-- ==== Proof.RefRunH.lean ====
import proofs.«175264_j42640435314985_1_alg».proof.Proof.Gen.ReferenceIdeal
import proofs.«175264_j42640435314985_1_alg».proof.Proof.RefRead
import proofs.«175264_j42640435314985_1_alg».proof.Proof.RefChunks
import Idealize.ShloMosaic.Lib.StableHlo.Run

set_option maxRecDepth 16384

noncomputable section

/-!
  The reference's run: its @main is its 87 host operations in order, these are the thirteen stretches one after the
  other, and so the result buffer ends at the last stage of the launch contents.
-/

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- @main's 87 operations, in order (a called function's operations stand in its call's place). -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf (F := F) .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v5 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v5 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v5 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    binary main_arg0 main_arg2 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v5 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v5 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v5 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg4 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v5 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v5 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v5 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x128 ![0, 1] bcast_S1700000x1_S1700000x128_0_1 : (⟨S1700000x1, .f32⟩ : BufTy).Contents (Elt F) → (⟨S1700000x128, .f32⟩ : BufTy).Contents (Elt F)),
    binary main_v55 main_v57 main_v58 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v59 (broadcastInDim S100000x128 ![] bcast_S_S100000x128 : (⟨S_, .f32⟩ : BufTy).Contents (Elt F) → (⟨S100000x128, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v64) (TRef.of (T := ⟨S100000x128, .f32⟩) main_call2_v0) (TRef.of (T := ⟨S100000x128, .f32⟩) main_v65) maximumf,
    binary main_v47 main_v65 main_v66 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub ..⟩

/-- The operations are the thirteen stretches, in order. -/
theorem ops_eq : (ops : List (HloOp τ sig (Elt F))) = c0 ++ (c1 ++ (c2 ++ (c3 ++ (c4 ++ (c5 ++ (c6 ++ (c7 ++ (c8 ++ (c9 ++ (c10 ++ (c11 ++ c12))))))))))) := rfl

/-- The contents after two stretches run one after the other. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## The stretches run one after the other, from the launch contents -/

section Chain
variable (m : (ℓ : Loc nD τ sig) → Buf (Elt F) ℓ) (c : Dev nD)

/-- The buffers' contents at launch, and after each stretch in turn. -/
abbrev U0 : Valuation τ sig (Elt F) := launchContents m c
abbrev U1 : Valuation τ sig (Elt F) := after c0 (U0 m c)
abbrev U2 : Valuation τ sig (Elt F) := after c1 (U1 m c)
abbrev U3 : Valuation τ sig (Elt F) := after c2 (U2 m c)
abbrev U4 : Valuation τ sig (Elt F) := after c3 (U3 m c)
abbrev U5 : Valuation τ sig (Elt F) := after c4 (U4 m c)
abbrev U6 : Valuation τ sig (Elt F) := after c5 (U5 m c)
abbrev U7 : Valuation τ sig (Elt F) := after c6 (U6 m c)
abbrev U8 : Valuation τ sig (Elt F) := after c7 (U7 m c)
abbrev U9 : Valuation τ sig (Elt F) := after c8 (U8 m c)
abbrev U10 : Valuation τ sig (Elt F) := after c9 (U9 m c)
abbrev U11 : Valuation τ sig (Elt F) := after c10 (U10 m c)
abbrev U12 : Valuation τ sig (Elt F) := after c11 (U11 m c)
abbrev U13 : Valuation τ sig (Elt F) := after c12 (U12 m c)

/-- After all the operations the buffers hold what they hold after the last stretch. -/
theorem after_ops : after ops (launchContents m c) = U13 m c := by
  rw [ops_eq]; simp only [after_app]

/-! ### The arguments, where a stretch reads them: nothing writes them -/

theorem arg0_U4 : U4 m c (Proc.devRef .tc main_arg0) = (m ((c.tc : Thread nD τ).loc main_arg0)) := ((keep3 (U3 m c) main_arg0 (by decide)).trans ((keep2 (U2 m c) main_arg0 (by decide)).trans ((keep1 (U1 m c) main_arg0 (by decide)).trans (keep0 (U0 m c) main_arg0 (by decide)))))
theorem arg2_U4 : U4 m c (Proc.devRef .tc main_arg2) = (m ((c.tc : Thread nD τ).loc main_arg2)) := ((keep3 (U3 m c) main_arg2 (by decide)).trans ((keep2 (U2 m c) main_arg2 (by decide)).trans ((keep1 (U1 m c) main_arg2 (by decide)).trans (keep0 (U0 m c) main_arg2 (by decide)))))
theorem arg3_U7 : U7 m c (Proc.devRef .tc main_arg3) = (m ((c.tc : Thread nD τ).loc main_arg3)) := ((keep6 (U6 m c) main_arg3 (by decide)).trans ((keep5 (U5 m c) main_arg3 (by decide)).trans ((keep4 (U4 m c) main_arg3 (by decide)).trans ((keep3 (U3 m c) main_arg3 (by decide)).trans ((keep2 (U2 m c) main_arg3 (by decide)).trans ((keep1 (U1 m c) main_arg3 (by decide)).trans (keep0 (U0 m c) main_arg3 (by decide))))))))
theorem arg4_U8 : U8 m c (Proc.devRef .tc main_arg4) = (m ((c.tc : Thread nD τ).loc main_arg4)) := ((keep7 (U7 m c) main_arg4 (by decide)).trans ((keep6 (U6 m c) main_arg4 (by decide)).trans ((keep5 (U5 m c) main_arg4 (by decide)).trans ((keep4 (U4 m c) main_arg4 (by decide)).trans ((keep3 (U3 m c) main_arg4 (by decide)).trans ((keep2 (U2 m c) main_arg4 (by decide)).trans ((keep1 (U1 m c) main_arg4 (by decide)).trans (keep0 (U0 m c) main_arg4 (by decide)))))))))
theorem arg5_U11 : U11 m c (Proc.devRef .tc main_arg5) = (m ((c.tc : Thread nD τ).loc main_arg5)) := ((keep10 (U10 m c) main_arg5 (by decide)).trans ((keep9 (U9 m c) main_arg5 (by decide)).trans ((keep8 (U8 m c) main_arg5 (by decide)).trans ((keep7 (U7 m c) main_arg5 (by decide)).trans ((keep6 (U6 m c) main_arg5 (by decide)).trans ((keep5 (U5 m c) main_arg5 (by decide)).trans ((keep4 (U4 m c) main_arg5 (by decide)).trans ((keep3 (U3 m c) main_arg5 (by decide)).trans ((keep2 (U2 m c) main_arg5 (by decide)).trans ((keep1 (U1 m c) main_arg5 (by decide)).trans (keep0 (U0 m c) main_arg5 (by decide))))))))))))

/-! ### The edge lists and the edge weights -/

theorem v1_U1 : U1 m c (Proc.devRef .tc main_v1) = val_main_v1 (m ((c.tc : Thread nD τ).loc main_arg1)) := r0_v1 (U0 m c) _ rfl
theorem v3_U1 : U1 m c (Proc.devRef .tc main_v3) = val_main_v3 (m ((c.tc : Thread nD τ).loc main_arg1)) := r0_v3 (U0 m c) _ rfl
theorem v4_U1 : U1 m c (Proc.devRef .tc main_v4) = val_main_v4 (F := F) := r0_v4 (U0 m c)
theorem v5_U2 : U2 m c (Proc.devRef .tc main_v5) = val_main_v5 (m ((c.tc : Thread nD τ).loc main_arg1)) := r1_v5 (U1 m c) _ (v1_U1 m c) (v4_U1 m c)
theorem v6_U2 : U2 m c (Proc.devRef .tc main_v6) = val_main_v6 (m ((c.tc : Thread nD τ).loc main_arg1)) := r1_v6 (U1 m c) _ (v3_U1 m c) (v4_U1 m c)
theorem v12_U2 : U2 m c (Proc.devRef .tc main_v12) = val_main_v12 (m ((c.tc : Thread nD τ).loc main_arg1)) := r1_v12 (U1 m c) _ (v3_U1 m c) (v4_U1 m c)
theorem v13_U2 : U2 m c (Proc.devRef .tc main_v13) = val_main_v13 (m ((c.tc : Thread nD τ).loc main_arg1)) := r1_v13 (U1 m c) _ (v3_U1 m c) (v4_U1 m c)
theorem cst2_U2 : U2 m c (Proc.devRef .tc main_cst_2) = val_main_cst_2 (F := F) := r1_cst2 (U1 m c)
theorem v14_U3 : U3 m c (Proc.devRef .tc main_v14) = val_main_v14 (m ((c.tc : Thread nD τ).loc main_arg1)) := r2_v14 (U2 m c) _ (v12_U2 m c) (v13_U2 m c) (cst2_U2 m c)
theorem v5_U3 : U3 m c (Proc.devRef .tc main_v5) = val_main_v5 (m ((c.tc : Thread nD τ).loc main_arg1)) := (keep2 (U2 m c) main_v5 (by decide)).trans (v5_U2 m c)
theorem v6_U3 : U3 m c (Proc.devRef .tc main_v6) = val_main_v6 (m ((c.tc : Thread nD τ).loc main_arg1)) := (keep2 (U2 m c) main_v6 (by decide)).trans (v6_U2 m c)
theorem v29_U4 : U4 m c (Proc.devRef .tc main_v29) = val_main_v29 (m ((c.tc : Thread nD τ).loc main_arg1)) := r3_v29 (U3 m c) _ (v5_U3 m c) (v6_U3 m c) (v14_U3 m c)
theorem v5_U4 : U4 m c (Proc.devRef .tc main_v5) = val_main_v5 (m ((c.tc : Thread nD τ).loc main_arg1)) := (keep3 (U3 m c) main_v5 (by decide)).trans (v5_U3 m c)
theorem v6_U4 : U4 m c (Proc.devRef .tc main_v6) = val_main_v6 (m ((c.tc : Thread nD τ).loc main_arg1)) := (keep3 (U3 m c) main_v6 (by decide)).trans (v6_U3 m c)
/-- From the fourth stretch on nothing writes the edge lists or the edge weights. -/
theorem v5_U9 : U9 m c (Proc.devRef .tc main_v5) = val_main_v5 (m ((c.tc : Thread nD τ).loc main_arg1)) := (((keep8 (U8 m c) main_v5 (by decide)).trans ((keep7 (U7 m c) main_v5 (by decide)).trans ((keep6 (U6 m c) main_v5 (by decide)).trans ((keep5 (U5 m c) main_v5 (by decide)).trans (keep4 (U4 m c) main_v5 (by decide))))))).trans (v5_U4 m c)
theorem v5_U5 : U5 m c (Proc.devRef .tc main_v5) = val_main_v5 (m ((c.tc : Thread nD τ).loc main_arg1)) := ((keep4 (U4 m c) main_v5 (by decide))).trans (v5_U4 m c)
theorem v29_U5 : U5 m c (Proc.devRef .tc main_v29) = val_main_v29 (m ((c.tc : Thread nD τ).loc main_arg1)) := ((keep4 (U4 m c) main_v29 (by decide))).trans (v29_U4 m c)
theorem v29_U9 : U9 m c (Proc.devRef .tc main_v29) = val_main_v29 (m ((c.tc : Thread nD τ).loc main_arg1)) := (((keep8 (U8 m c) main_v29 (by decide)).trans ((keep7 (U7 m c) main_v29 (by decide)).trans ((keep6 (U6 m c) main_v29 (by decide)).trans ((keep5 (U5 m c) main_v29 (by decide)).trans (keep4 (U4 m c) main_v29 (by decide))))))).trans (v29_U4 m c)
theorem v6_U6 : U6 m c (Proc.devRef .tc main_v6) = val_main_v6 (m ((c.tc : Thread nD τ).loc main_arg1)) := (((keep5 (U5 m c) main_v6 (by decide)).trans (keep4 (U4 m c) main_v6 (by decide)))).trans (v6_U4 m c)
theorem v6_U10 : U10 m c (Proc.devRef .tc main_v6) = val_main_v6 (m ((c.tc : Thread nD τ).loc main_arg1)) := (((keep9 (U9 m c) main_v6 (by decide)).trans ((keep8 (U8 m c) main_v6 (by decide)).trans ((keep7 (U7 m c) main_v6 (by decide)).trans ((keep6 (U6 m c) main_v6 (by decide)).trans ((keep5 (U5 m c) main_v6 (by decide)).trans (keep4 (U4 m c) main_v6 (by decide)))))))).trans (v6_U4 m c)

/-! ### The two layers -/

theorem v30_U5 : U5 m c (Proc.devRef .tc main_v30) = val_main_v30 (m ((c.tc : Thread nD τ).loc main_arg0)) (m ((c.tc : Thread nD τ).loc main_arg2)) := r4_v30 (U4 m c) _ _ (arg0_U4 m c) (arg2_U4 m c)
theorem v40_U6 : U6 m c (Proc.devRef .tc main_v40) = val_main_v40 (m ((c.tc : Thread nD τ).loc main_arg0)) (m ((c.tc : Thread nD τ).loc main_arg1)) (m ((c.tc : Thread nD τ).loc main_arg2)) := r5_v40 (U5 m c) _ _ _ (v30_U5 m c) (v5_U5 m c) (v29_U5 m c)
theorem v43_U7 : U7 m c (Proc.devRef .tc main_v43) = val_main_v43 (m ((c.tc : Thread nD τ).loc main_arg0)) (m ((c.tc : Thread nD τ).loc main_arg1)) (m ((c.tc : Thread nD τ).loc main_arg2)) := r6_v43 (U6 m c) _ _ _ (v40_U6 m c) (v6_U6 m c)
theorem v47_U8 : U8 m c (Proc.devRef .tc main_v47) = val_main_v47 (m ((c.tc : Thread nD τ).loc main_arg0)) (m ((c.tc : Thread nD τ).loc main_arg1)) (m ((c.tc : Thread nD τ).loc main_arg2)) (m ((c.tc : Thread nD τ).loc main_arg3)) := r7_v47 (U7 m c) _ _ _ _ (v43_U7 m c) (arg3_U7 m c)
theorem v48_U9 : U9 m c (Proc.devRef .tc main_v48) = val_main_v48 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := r8_v48 (U8 m c) _ _ _ _ _ (v47_U8 m c) (arg4_U8 m c)
theorem v58_U10 : U10 m c (Proc.devRef .tc main_v58) = val_main_v58 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := r9_v58 (U9 m c) _ _ _ _ _ (v48_U9 m c) (v5_U9 m c) (v29_U9 m c)
theorem v61_U11 : U11 m c (Proc.devRef .tc main_v61) = val_main_v61 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := r10_v61 (U10 m c) _ _ _ _ _ (v58_U10 m c) (v6_U10 m c)
theorem v65_U12 : U12 m c (Proc.devRef .tc main_v65) = val_main_v65 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := r11_v65 (U11 m c) _ _ _ _ _ _ (v61_U11 m c) (arg5_U11 m c)
/-- The first layer's result is still there when the two are put side by side. -/
theorem v47_U12 : U12 m c (Proc.devRef .tc main_v47) = val_main_v47 (m ((c.tc : Thread nD τ).loc main_arg0)) (m ((c.tc : Thread nD τ).loc main_arg1)) (m ((c.tc : Thread nD τ).loc main_arg2)) (m ((c.tc : Thread nD τ).loc main_arg3)) := (((keep11 (U11 m c) main_v47 (by decide)).trans ((keep10 (U10 m c) main_v47 (by decide)).trans ((keep9 (U9 m c) main_v47 (by decide)).trans (keep8 (U8 m c) main_v47 (by decide)))))).trans (v47_U8 m c)
theorem v66_U13 : U13 m c (Proc.devRef .tc main_v66) = val_main_v66 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := r12_v66 (U12 m c) _ _ _ _ _ _ (v47_U12 m c) (v65_U12 m c)

/-- A reference no stretch writes holds at the end what it held at launch. -/
theorem stay (r : Ref sig .tc) (h0 : r ∉ w0) (h1 : r ∉ w1) (h2 : r ∉ w2) (h3 : r ∉ w3) (h4 : r ∉ w4) (h5 : r ∉ w5) (h6 : r ∉ w6) (h7 : r ∉ w7) (h8 : r ∉ w8) (h9 : r ∉ w9) (h10 : r ∉ w10) (h11 : r ∉ w11) (h12 : r ∉ w12) :
    U13 m c (Proc.devRef .tc r) = launchContents m c (Proc.devRef .tc r) :=
  ((keep12 (U12 m c) r h12).trans ((keep11 (U11 m c) r h11).trans ((keep10 (U10 m c) r h10).trans ((keep9 (U9 m c) r h9).trans ((keep8 (U8 m c) r h8).trans ((keep7 (U7 m c) r h7).trans ((keep6 (U6 m c) r h6).trans ((keep5 (U5 m c) r h5).trans ((keep4 (U4 m c) r h4).trans ((keep3 (U3 m c) r h3).trans ((keep2 (U2 m c) r h2).trans ((keep1 (U1 m c) r h1).trans (keep0 (U0 m c) r h0)))))))))))))

end Chain

set_option maxRecDepth 8192 in
set_option maxHeartbeats 4000000 in
/-- Every weakly fair execution of the reference's @main terminates with every buffer at what the operations, run in
    order from the launch contents, leave in it. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-- Every weakly fair execution of the reference's @main terminates with its result buffer at the last stage of the
    launch contents of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66) = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v66).trans ((congrFun (after_ops m c) _).trans (v66_U13 m c)),
      (h c main_arg0).trans ((congrFun (after_ops m c) _).trans (stay m c main_arg0 (by decide) (by decide) (by decide) (by decide) (by decide) (by decide) (by decide) (by decide) (by decide) (by decide) (by decide) (by decide) (by decide))),
      (h c main_arg1).trans ((congrFun (after_ops m c) _).trans (stay m c main_arg1 (by decide) (by decide) (by decide) (by decide) (by decide) (by decide) (by decide) (by decide) (by decide) (by decide) (by decide) (by decide) (by decide))),
      (h c main_arg2).trans ((congrFun (after_ops m c) _).trans (stay m c main_arg2 (by decide) (by decide) (by decide) (by decide) (by decide) (by decide) (by decide) (by decide) (by decide) (by decide) (by decide) (by decide) (by decide))),
      (h c main_arg3).trans ((congrFun (after_ops m c) _).trans (stay m c main_arg3 (by decide) (by decide) (by decide) (by decide) (by decide) (by decide) (by decide) (by decide) (by decide) (by decide) (by decide) (by decide) (by decide))),
      (h c main_arg4).trans ((congrFun (after_ops m c) _).trans (stay m c main_arg4 (by decide) (by decide) (by decide) (by decide) (by decide) (by decide) (by decide) (by decide) (by decide) (by decide) (by decide) (by decide) (by decide))),
      (h c main_arg5).trans ((congrFun (after_ops m c) _).trans (stay m c main_arg5 (by decide) (by decide) (by decide) (by decide) (by decide) (by decide) (by decide) (by decide) (by decide) (by decide) (by decide) (by decide) (by decide)))⟩)
    (run_fold m ρ)

end Cert.ReferenceIdeal.RunH

end
-- ==== Proof.HostStages.lean ====
import proofs.«175264_j42640435314985_1_alg».proof.Proof.Gen.KernelIdeal.Launch
import proofs.«175264_j42640435314985_1_alg».proof.Proof.RefRead
import Idealize.ShloMosaic.Lib.StableHlo.Run

set_option maxRecDepth 16384

noncomputable section

/-!
  The host stretches of the kernel's @main, read against the reference's stages.

  Between its six pallas_calls the kernel's @main runs the reference's own host operations: the edge lists with the
  self loops appended, the degrees and the symmetric edge weights before the first call; before each scale call the
  gather of the node features along the source list and the weights laid out as a column; before each bias call
  the scatter-add of the messages along the target list and the bias laid out as a row; the concatenation at the
  end. Each lemma below says, for any contents before a stretch, what one buffer holds after it, as the reference's
  stage of the contents the stretch read. They hold for every float family.
-/

namespace Cert.KernelIdeal.HostStages

open Cert.KernelIdeal Cert.KernelIdeal.Gen Idealize.ShloMosaic Idealize.ShloMosaic.TcCoe Idealize.SL.Sem
open Idealize.ShloMosaic.StableHlo
open Cert.ReferenceIdeal.ReadP

variable {F : FTy → Type} [FloatOps F]
variable (Wp : Valuation τ sig (Elt F))

/-! ## Before the first call: the edge lists and the edge weights, from the edge array alone -/

section Pre
variable (x1 : (⟨S2x1600000, .i32⟩ : BufTy).Contents (Elt F))

/-- The source list, the self loops appended, after the first stretch. -/
theorem first_v5 (h1 : Wp (Proc.devRef .tc main_arg1) = x1) : after hostOps0 Wp (Proc.devRef .tc main_v5) = val_main_v5 x1 := by
  subst h1; after_results; rfl
/-- The target list, the self loops appended, after the first stretch. -/
theorem first_v6 (h1 : Wp (Proc.devRef .tc main_arg1) = x1) : after hostOps0 Wp (Proc.devRef .tc main_v6) = val_main_v6 x1 := by
  subst h1; after_results; rfl
/-- Which nodes have a positive degree. -/
theorem first_v12 (h1 : Wp (Proc.devRef .tc main_arg1) = x1) : after hostOps0 Wp (Proc.devRef .tc main_v12) = val_main_v12 x1 := by
  subst h1; after_results; rfl
/-- The inverse square roots of the degrees. -/
theorem first_v13 (h1 : Wp (Proc.devRef .tc main_arg1) = x1) : after hostOps0 Wp (Proc.devRef .tc main_v13) = val_main_v13 x1 := by
  subst h1; after_results; rfl
/-- The zero that stands in where a degree is not positive. -/
theorem first_cst2 : after hostOps0 Wp (Proc.devRef .tc main_cst_2) = val_main_cst_2 (F := F) := by
  after_results; rfl

/-- The second stretch selects: the inverse square root where the degree is positive, zero elsewhere. -/
theorem second_v14 (e12 : Wp (Proc.devRef .tc main_v12) = val_main_v12 x1) (e13 : Wp (Proc.devRef .tc main_v13) = val_main_v13 x1)
    (ec : Wp (Proc.devRef .tc main_cst_2) = val_main_cst_2 (F := F)) :
    after hostOps0_1 Wp (Proc.devRef .tc main_v14) = val_main_v14 x1 := by
  after_results
  show select (Wp (Proc.devRef .tc main_v12)) (Wp (Proc.devRef .tc main_v13))
      (broadcastInDim S100000 ![] bcast_S_S100000 (id (Wp (Proc.devRef .tc main_cst_2)))) = _
  rw [e12, e13, ec]; rfl
theorem second_keep_v5 : after hostOps0_1 Wp (Proc.devRef .tc main_v5) = Wp (Proc.devRef .tc main_v5) := by after_results
theorem second_keep_v6 : after hostOps0_1 Wp (Proc.devRef .tc main_v6) = Wp (Proc.devRef .tc main_v6) := by after_results

/-- The third stretch: the edge weights, the product of the two ends' selected values. -/
theorem third_v29 (e5 : Wp (Proc.devRef .tc main_v5) = val_main_v5 x1) (e6 : Wp (Proc.devRef .tc main_v6) = val_main_v6 x1)
    (e14 : Wp (Proc.devRef .tc main_v14) = val_main_v14 x1) :
    after hostOps0_2 Wp (Proc.devRef .tc main_v29) = val_main_v29 x1 := by
  after_results_simp; rw [e5, e6, e14]; rfl
theorem third_keep_v5 : after hostOps0_2 Wp (Proc.devRef .tc main_v5) = Wp (Proc.devRef .tc main_v5) := by after_results
theorem third_keep_v6 : after hostOps0_2 Wp (Proc.devRef .tc main_v6) = Wp (Proc.devRef .tc main_v6) := by after_results

variable (h1 : Wp (Proc.devRef .tc main_arg1) = x1)
include h1

/-- The source list when the first call is entered. -/
theorem pre_v5 : after hostOps0_2 (after hostOps0_1 (after hostOps0 Wp)) (Proc.devRef .tc main_v5) = val_main_v5 x1 :=
  (third_keep_v5 _).trans ((second_keep_v5 _).trans (first_v5 Wp x1 h1))

/-- The target list when the first call is entered. -/
theorem pre_v6 : after hostOps0_2 (after hostOps0_1 (after hostOps0 Wp)) (Proc.devRef .tc main_v6) = val_main_v6 x1 :=
  (third_keep_v6 _).trans ((second_keep_v6 _).trans (first_v6 Wp x1 h1))

/-- The edge weights when the first call is entered. -/
theorem pre_v29 : after hostOps0_2 (after hostOps0_1 (after hostOps0 Wp)) (Proc.devRef .tc main_v29) = val_main_v29 x1 :=
  third_v29 _ x1 ((second_keep_v5 _).trans (first_v5 Wp x1 h1)) ((second_keep_v6 _).trans (first_v6 Wp x1 h1))
    (second_v14 _ x1 (first_v12 Wp x1 h1) (first_v13 Wp x1 h1) (first_cst2 Wp))

end Pre

/-! ## Before a scale call: the gathered rows and the weight column -/

/-- The rows of the linear layer's result gathered along the source list (first layer). -/
theorem host1_v37 (h : (⟨S100000x128, .f32⟩ : BufTy).Contents (Elt F)) (x1 : (⟨S2x1600000, .i32⟩ : BufTy).Contents (Elt F))
    (e30 : Wp (Proc.devRef .tc main_v30) = h) (e5 : Wp (Proc.devRef .tc main_v5) = val_main_v5 x1) :
    after hostOps1 Wp (Proc.devRef .tc main_v37) = Host.gather Cert.ReferenceIdeal.gather_S100000x128_S1700000x1_S1700000x128_1_0_n_n_0_1_1128 h (val_main_v36 x1) := by
  after_results; rw [e30, e5]; rfl

/-- The edge weights as a column (first layer). -/
theorem host1_v38 (w : (⟨S1700000, .f32⟩ : BufTy).Contents (Elt F)) (e29 : Wp (Proc.devRef .tc main_v29) = w) :
    after hostOps1 Wp (Proc.devRef .tc main_v38) = shapeCast S1700000x1 w shapeCasts_S1700000_S1700000x1 := by
  after_results; rw [e29]; rfl

/-- The rows of the linear layer's result gathered along the source list (second layer). -/
theorem host4_v52 (h : (⟨S100000x128, .f32⟩ : BufTy).Contents (Elt F)) (x1 : (⟨S2x1600000, .i32⟩ : BufTy).Contents (Elt F))
    (e45 : Wp (Proc.devRef .tc main_v45) = h) (e5 : Wp (Proc.devRef .tc main_v5) = val_main_v5 x1) :
    after hostOps4 Wp (Proc.devRef .tc main_v52) = Host.gather Cert.ReferenceIdeal.gather_S100000x128_S1700000x1_S1700000x128_1_0_n_n_0_1_1128 h (val_main_v54 x1) := by
  after_results; rw [e45, e5]; rfl

/-- The edge weights as a column (second layer). -/
theorem host4_v53 (w : (⟨S1700000, .f32⟩ : BufTy).Contents (Elt F)) (e29 : Wp (Proc.devRef .tc main_v29) = w) :
    after hostOps4 Wp (Proc.devRef .tc main_v53) = shapeCast S1700000x1 w shapeCasts_S1700000_S1700000x1 := by
  after_results; rw [e29]; rfl

/-! ## Before a bias call: the scattered sum and the bias row -/

/-- The messages summed into their target nodes (first layer). -/
theorem host2_v42 (msg : (⟨S1700000x128, .f32⟩ : BufTy).Contents (Elt F)) (x1 : (⟨S2x1600000, .i32⟩ : BufTy).Contents (Elt F))
    (e39 : Wp (Proc.devRef .tc main_v39) = msg) (e6 : Wp (Proc.devRef .tc main_v6) = val_main_v6 x1) :
    after hostOps2 Wp (Proc.devRef .tc main_v42) = Host.scatterAdd Cert.ReferenceIdeal.scatter_S100000x128_S1700000x1_S1700000x128_1_0_0_1 (val_main_v41 (F := F)) (val_main_v42 x1) msg := by
  after_results; rw [e39, e6]; rfl

/-- The bias as a row (first layer). -/
theorem host2_v43 (b : (⟨S128, .f32⟩ : BufTy).Contents (Elt F)) (e3 : Wp (Proc.devRef .tc main_arg3) = b) :
    after hostOps2 Wp (Proc.devRef .tc main_v43) = shapeCast S1x128 b shapeCasts_S128_S1x128 := by
  after_results; rw [e3]; rfl

/-- The messages summed into their target nodes (second layer). -/
theorem host5_v57 (msg : (⟨S1700000x128, .f32⟩ : BufTy).Contents (Elt F)) (x1 : (⟨S2x1600000, .i32⟩ : BufTy).Contents (Elt F))
    (e54 : Wp (Proc.devRef .tc main_v54) = msg) (e6 : Wp (Proc.devRef .tc main_v6) = val_main_v6 x1) :
    after hostOps5 Wp (Proc.devRef .tc main_v57) = Host.scatterAdd Cert.ReferenceIdeal.scatter_S100000x128_S1700000x1_S1700000x128_1_0_0_1 (val_main_v59 (F := F)) (val_main_v60 x1) msg := by
  after_results; rw [e54, e6]; rfl

/-- The bias as a row (second layer). -/
theorem host5_v58 (b : (⟨S128, .f32⟩ : BufTy).Contents (Elt F)) (e5 : Wp (Proc.devRef .tc main_arg5) = b) :
    after hostOps5 Wp (Proc.devRef .tc main_v58) = shapeCast S1x128 b shapeCasts_S128_S1x128 := by
  after_results; rw [e5]; rfl

/-! ## After the last call: the two layers' results side by side -/

theorem host6_v60 (u v : (⟨S100000x128, .f32⟩ : BufTy).Contents (Elt F))
    (e44 : Wp (Proc.devRef .tc main_v44) = u) (e59 : Wp (Proc.devRef .tc main_v59) = v) :
    after hostOps6 Wp (Proc.devRef .tc main_v60)
      = concatenate Cert.ReferenceIdeal.S100000x256 1 [⟨Cert.ReferenceIdeal.S100000x128, u⟩, ⟨Cert.ReferenceIdeal.S100000x128, v⟩] Cert.ReferenceIdeal.Gen.concatenates_S100000x128_S100000x128_S100000x256_d1 := by
  after_results; rw [e44, e59]

end Cert.KernelIdeal.HostStages

end
-- ==== Proof.Walk.lean ====
import proofs.«175264_j42640435314985_1_alg».proof.Proof.Gen.KernelIdeal.Frame
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-! Buffers that nothing between two boundaries of @main writes hold at the later boundary what they held at the
    earlier one: an argument array its launch contents, an intermediate of the first host stretches what it held
    when the first region was entered, the first layer's result what the third region's entry found. -/

/-! ## What each host stretch writes, and that it writes nothing else -/

/-- The references the first host stretch writes. -/
abbrev wrA : List (Ref sig .tc) := [main_v0, main_v1, main_v2, main_v3, main_v4, main_v5, main_v6, main_cst, main_v7, main_cst_0, main_v8, main_v9, main_v10, main_cst_1, main_v11, main_v12, main_v13, main_cst_2]
theorem wrA_sub : (hostOps0 : List (HloOp τ sig (Elt F))).Forall fun op => op.writes ⊆ (wrA.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A reference it does not write holds after it what it held before. -/
theorem W1_keep (r : Ref sig .tc) (h : r ∉ wrA) : W1 m ρ c (Proc.devRef .tc r) = W0 m ρ c (Proc.devRef .tc r) :=
  StableHlo.after_of_writes_sub hostOps0 _ wrA_sub h

/-- The references the second host stretch writes. -/
abbrev wrB : List (Ref sig .tc) := [main_call0_v0, main_call0_v1, main_v14]
theorem wrB_sub : (hostOps0_1 : List (HloOp τ sig (Elt F))).Forall fun op => op.writes ⊆ (wrB.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A reference it does not write holds after it what it held before. -/
theorem W2_keep (r : Ref sig .tc) (h : r ∉ wrB) : W2 m ρ c (Proc.devRef .tc r) = W1 m ρ c (Proc.devRef .tc r) :=
  StableHlo.after_of_writes_sub hostOps0_1 _ wrB_sub h

/-- The references the third host stretch writes. -/
abbrev wrC : List (Ref sig .tc) := [main_c, main_v15, main_v16, main_c_3, main_v17, main_v18, main_v19, main_v20, main_v21, main_c_4, main_v22, main_v23, main_c_5, main_v24, main_v25, main_v26, main_v27, main_v28, main_v29]
theorem wrC_sub : (hostOps0_2 : List (HloOp τ sig (Elt F))).Forall fun op => op.writes ⊆ (wrC.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A reference it does not write holds after it what it held before. -/
theorem W3_keep (r : Ref sig .tc) (h : r ∉ wrC) : W3 m ρ c (Proc.devRef .tc r) = W2 m ρ c (Proc.devRef .tc r) :=
  StableHlo.after_of_writes_sub hostOps0_2 _ wrC_sub h

/-- The references the host stretch before the second region writes. -/
abbrev wrD : List (Ref sig .tc) := [main_c_6, main_v31, main_v32, main_c_7, main_v33, main_v34, main_v35, main_v36, main_v37, main_v38]
theorem wrD_sub : (hostOps1 : List (HloOp τ sig (Elt F))).Forall fun op => op.writes ⊆ (wrD.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A reference it does not write holds after it what it held before. -/
theorem W5_keep (r : Ref sig .tc) (h : r ∉ wrD) : W5 m ρ c (Proc.devRef .tc r) = W4 m ρ c (Proc.devRef .tc r) :=
  StableHlo.after_of_writes_sub hostOps1 _ wrD_sub h

/-- The references the host stretch before the third region writes. -/
abbrev wrE : List (Ref sig .tc) := [main_cst_8, main_v40, main_v41, main_v42, main_v43]
theorem wrE_sub : (hostOps2 : List (HloOp τ sig (Elt F))).Forall fun op => op.writes ⊆ (wrE.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A reference it does not write holds after it what it held before. -/
theorem W7_keep (r : Ref sig .tc) (h : r ∉ wrE) : W7 m ρ c (Proc.devRef .tc r) = W6 m ρ c (Proc.devRef .tc r) :=
  StableHlo.after_of_writes_sub hostOps2 _ wrE_sub h

/-- The references the host stretch before the fifth region writes. -/
abbrev wrF : List (Ref sig .tc) := [main_c_9, main_v46, main_v47, main_c_10, main_v48, main_v49, main_v50, main_v51, main_v52, main_v53]
theorem wrF_sub : (hostOps4 : List (HloOp τ sig (Elt F))).Forall fun op => op.writes ⊆ (wrF.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A reference it does not write holds after it what it held before. -/
theorem W10_keep (r : Ref sig .tc) (h : r ∉ wrF) : W10 m ρ c (Proc.devRef .tc r) = W9 m ρ c (Proc.devRef .tc r) :=
  StableHlo.after_of_writes_sub hostOps4 _ wrF_sub h

/-- The references the host stretch before the sixth region writes. -/
abbrev wrG : List (Ref sig .tc) := [main_cst_11, main_v55, main_v56, main_v57, main_v58]
theorem wrG_sub : (hostOps5 : List (HloOp τ sig (Elt F))).Forall fun op => op.writes ⊆ (wrG.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A reference it does not write holds after it what it held before. -/
theorem W12_keep (r : Ref sig .tc) (h : r ∉ wrG) : W12 m ρ c (Proc.devRef .tc r) = W11 m ρ c (Proc.devRef .tc r) :=
  StableHlo.after_of_writes_sub hostOps5 _ wrG_sub h

/-- A reference none of the three first host stretches writes holds at the first region's entry its launch contents. -/
theorem W3_launch (r : Ref sig .tc) (h0 : r ∉ wrA) (h1 : r ∉ wrB) (h2 : r ∉ wrC) :
    W3 m ρ c (Proc.devRef .tc r) = m ((c : Thread nD τ).loc r) :=
  (W3_keep m ρ c r h2).trans <| (W2_keep m ρ c r h1).trans <| (W1_keep m ρ c r h0).trans rfl

/-! ## Walks across regions of which the reference is no array -/

/-- From the first region's entry to the second region's exit. -/
theorem W6_W3 (r : Ref sig .tc) (h0 : ∀ w, Pipeline.arrRef spec0 w ≠ r) (hD : r ∉ wrD) (h1 : ∀ w, Pipeline.arrRef spec1 w ≠ r) :
    W6 m ρ c (Proc.devRef .tc r) = W3 m ρ c (Proc.devRef .tc r) :=
  (W6_of_ne m ρ c r h1).trans <| (W5_keep m ρ c r hD).trans <| W4_of_ne m ρ c r h0

/-- From the second region's exit to the third region's exit. -/
theorem W8_W6 (r : Ref sig .tc) (hE : r ∉ wrE) (h2 : ∀ w, Pipeline.arrRef spec2 w ≠ r) :
    W8 m ρ c (Proc.devRef .tc r) = W6 m ρ c (Proc.devRef .tc r) :=
  (W8_of_ne m ρ c r h2).trans <| W7_keep m ρ c r hE

/-- From the fourth region's exit to the fifth region's exit. -/
theorem W11_W9 (r : Ref sig .tc) (hF : r ∉ wrF) (h4 : ∀ w, Pipeline.arrRef spec4 w ≠ r) :
    W11 m ρ c (Proc.devRef .tc r) = W9 m ρ c (Proc.devRef .tc r) :=
  (W11_of_ne m ρ c r h4).trans <| W10_keep m ρ c r hF

/-! ## The argument arrays -/

theorem arg0_W3 : W3 m ρ c (Proc.devRef .tc main_arg0) = m ((c : Thread nD τ).loc main_arg0) :=
  W3_launch m ρ c main_arg0 (by decide) (by decide) (by decide)
theorem arg2_W3 : W3 m ρ c (Proc.devRef .tc main_arg2) = m ((c : Thread nD τ).loc main_arg2) :=
  W3_launch m ρ c main_arg2 (by decide) (by decide) (by decide)
theorem arg3_W6 : W6 m ρ c (Proc.devRef .tc main_arg3) = m ((c : Thread nD τ).loc main_arg3) :=
  (W6_W3 m ρ c main_arg3 (by decide) (by decide) (by decide)).trans <|
    W3_launch m ρ c main_arg3 (by decide) (by decide) (by decide)
theorem arg4_W8 : W8 m ρ c (Proc.devRef .tc main_arg4) = m ((c : Thread nD τ).loc main_arg4) :=
  (W8_W6 m ρ c main_arg4 (by decide) (by decide)).trans <|
    (W6_W3 m ρ c main_arg4 (by decide) (by decide) (by decide)).trans <|
    W3_launch m ρ c main_arg4 (by decide) (by decide) (by decide)
theorem arg5_W11 : W11 m ρ c (Proc.devRef .tc main_arg5) = m ((c : Thread nD τ).loc main_arg5) :=
  (W11_W9 m ρ c main_arg5 (by decide) (by decide)).trans <|
    (W9_of_ne m ρ c main_arg5 (by decide)).trans <|
    (W8_W6 m ρ c main_arg5 (by decide) (by decide)).trans <|
    (W6_W3 m ρ c main_arg5 (by decide) (by decide) (by decide)).trans <|
    W3_launch m ρ c main_arg5 (by decide) (by decide) (by decide)

/-! ## The intermediates of the first host stretches -/

theorem v5_W4 : W4 m ρ c (Proc.devRef .tc main_v5) = W3 m ρ c (Proc.devRef .tc main_v5) :=
  W4_of_ne m ρ c main_v5 (by decide)
theorem v29_W4 : W4 m ρ c (Proc.devRef .tc main_v29) = W3 m ρ c (Proc.devRef .tc main_v29) :=
  W4_of_ne m ρ c main_v29 (by decide)
theorem v6_W6 : W6 m ρ c (Proc.devRef .tc main_v6) = W3 m ρ c (Proc.devRef .tc main_v6) :=
  W6_W3 m ρ c main_v6 (by decide) (by decide) (by decide)
theorem v5_W9 : W9 m ρ c (Proc.devRef .tc main_v5) = W3 m ρ c (Proc.devRef .tc main_v5) :=
  (W9_of_ne m ρ c main_v5 (by decide)).trans <|
    (W8_W6 m ρ c main_v5 (by decide) (by decide)).trans <|
    W6_W3 m ρ c main_v5 (by decide) (by decide) (by decide)
theorem v29_W9 : W9 m ρ c (Proc.devRef .tc main_v29) = W3 m ρ c (Proc.devRef .tc main_v29) :=
  (W9_of_ne m ρ c main_v29 (by decide)).trans <|
    (W8_W6 m ρ c main_v29 (by decide) (by decide)).trans <|
    W6_W3 m ρ c main_v29 (by decide) (by decide) (by decide)
theorem v6_W11 : W11 m ρ c (Proc.devRef .tc main_v6) = W3 m ρ c (Proc.devRef .tc main_v6) :=
  (W11_W9 m ρ c main_v6 (by decide) (by decide)).trans <|
    (W9_of_ne m ρ c main_v6 (by decide)).trans <|
    (W8_W6 m ρ c main_v6 (by decide) (by decide)).trans <|
    v6_W6 m ρ c

/-! ## The first layer's result: the fourth region reads it through an input window, which the pipeline leaves as entered -/

theorem v44_W13 : W13 m ρ c (Proc.devRef .tc main_v44) = W8 m ρ c (Proc.devRef .tc main_v44) :=
  (W13_of_ne m ρ c main_v44 (by decide)).trans <|
    (W12_keep m ρ c main_v44 (by decide)).trans <|
    (W11_W9 m ρ c main_v44 (by decide) (by decide)).trans <|
    (W9_arr m ρ c 0).trans (((dat3 (V8 m ρ) c).arrAt_in 0 rfl _).trans (A_eq3 (V8 m ρ) c 0))

end Cert.KernelIdeal.Walk

end
-- ==== Proof.Bridges.lean ====
import proofs.«175264_j42640435314985_1_alg».proof.KernelIdeal
import proofs.«175264_j42640435314985_1_alg».proof.Proof.Gen.KernelIdeal
import proofs.«175264_j42640435314985_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridges

open Cert.KernelIdeal Cert.KernelIdeal.Gen Idealize.ShloMosaic Idealize.ShloMosaic.TcCoe Idealize.SL.Sem
open Idealize.ShloMosaic.ValueIdx
open Cert.ReferenceIdeal.ReadP
open scoped BigOperators

/-- At the ideal instance: An array whose entry (p, q) is the sum over k of A (p, k) · B (k, q) is the reference's
    dot_general of A and B. -/
theorem dot_stage (A : (⟨S100000x128, .f32⟩ : BufTy).Contents (Elt Ideal)) (B : (⟨S128x128, .f32⟩ : BufTy).Contents (Elt Ideal))
    (out : (⟨S100000x128, .f32⟩ : BufTy).Contents (Elt Ideal))
    (h : ∀ (p : Fin 100000) (q : Fin 128), out (ix2 p q) = ∑ k : Fin 128, A (ix2 p k) * B (ix2 k q)) :
    out = val_main_v30 (F := Ideal) A B := by
  funext i
  obtain ⟨p, q, rfl⟩ : ∃ (p : Fin 100000) (q : Fin 128), i = ix2 p q := ⟨i 0, i 1, eq_ix2 i⟩
  rw [h p q, val_main_v30_apply]
  refine Finset.sum_congr rfl fun k _ => ?_
  have el : lidx_main_v30 (ix2 p q) k = ix2 p k := funext fun a => match a with | ⟨0, _⟩ => rfl | ⟨1, _⟩ => rfl
  have er : ridx_main_v30 (ix2 p q) k = ix2 k q := funext fun a => match a with | ⟨0, _⟩ => rfl | ⟨1, _⟩ => rfl
  rw [el, er]

variable {F : FTy → Type} [FloatOps F]

/-- For any float family: An array whose entry (e, j) is g (e, j) times entry (e, 0) of the weights laid out
    as a column by a reshape is the reference's product of g with the weights broadcast, first to a column and then
    along the rows. -/
theorem scale_stage (g : (⟨S1700000x128, .f32⟩ : BufTy).Contents (Elt F)) (w : (⟨S1700000, .f32⟩ : BufTy).Contents (Elt F))
    (out : (⟨S1700000x128, .f32⟩ : BufTy).Contents (Elt F))
    (h : ∀ (e : Fin 1700000) (j : Fin 128), out (ix2 e j) = FloatOps.mulf (g (ix2 e j)) (shapeCast S1700000x1 w shapeCasts_S1700000_S1700000x1 (ix2 e (0 : Fin 1)))) :
    out = mulf g (broadcastInDim Cert.ReferenceIdeal.S1700000x128 ![0, 1] Cert.ReferenceIdeal.Gen.bcast_S1700000x1_S1700000x128_0_1
      (broadcastInDim Cert.ReferenceIdeal.S1700000x1 ![0] Cert.ReferenceIdeal.Gen.bcast_S1700000_S1700000x1_0 w)) := by
  funext i
  obtain ⟨e, j, rfl⟩ : ∃ (e : Fin 1700000) (j : Fin 128), i = ix2 e j := ⟨i 0, i 1, eq_ix2 i⟩
  rw [h e j]
  show _ = FloatOps.mulf (g (ix2 e j)) _
  congr 1
  -- the column laid out by the reshape holds the weight of row e at (e, 0)
  refine (shapeCast_apply w shapeCasts_S1700000_S1700000x1 (ix2 e (0 : Fin 1)) (ix1 e) (by
    rw [Shape.rowMajor_val_two, Shape.rowMajor_val_one]; show e.val = e.val * 1 + 0; omega)).trans ?_
  -- and so does the weight broadcast to a column and then along the row
  refine ((broadcastInDim_apply _ Cert.ReferenceIdeal.Gen.bcast_S1700000x1_S1700000x128_0_1 _ (ix2 e j) (ix2 e (0 : Fin 1)) (fun a => match a with
    | ⟨0, _⟩ => by show e.val = if (1700000 : Nat) = 1 then 0 else e.val; rw [if_neg (by decide)]
    | ⟨1, _⟩ => by show 0 = if (1 : Nat) = 1 then 0 else j.val; rw [if_pos rfl])).trans ?_).symm
  exact broadcastInDim_apply _ Cert.ReferenceIdeal.Gen.bcast_S1700000_S1700000x1_0 w (ix2 e (0 : Fin 1)) (ix1 e) (fun a => match a with
    | ⟨0, _⟩ => by show e.val = if (1700000 : Nat) = 1 then 0 else e.val; rw [if_neg (by decide)])

/-- For any float family: An array whose entry (p, q) is max (agg (p, q) + entry (0, q) of the bias laid out as
    a row by a reshape, 0) is the reference's relu of agg plus the bias broadcast, first to a row and then down the
    columns. -/
theorem bias_relu_stage (agg : (⟨S100000x128, .f32⟩ : BufTy).Contents (Elt F)) (b : (⟨S128, .f32⟩ : BufTy).Contents (Elt F))
    (out : (⟨S100000x128, .f32⟩ : BufTy).Contents (Elt F))
    (h : ∀ (p : Fin 100000) (q : Fin 128), out (ix2 p q) = FloatOps.maximumf (FloatOps.addf (agg (ix2 p q)) (shapeCast S1x128 b shapeCasts_S128_S1x128 (ix2 (0 : Fin 1) q))) (FloatOps.ofBits .f32 0x00000000#32)) :
    out = maximumf (addf agg (broadcastInDim Cert.ReferenceIdeal.S100000x128 ![0, 1] Cert.ReferenceIdeal.Gen.bcast_S1x128_S100000x128_0_1
      (broadcastInDim Cert.ReferenceIdeal.S1x128 ![1] Cert.ReferenceIdeal.Gen.bcast_S128_S1x128_1 b))) (val_main_call1_v0 (F := F)) := by
  funext i
  obtain ⟨p, q, rfl⟩ : ∃ (p : Fin 100000) (q : Fin 128), i = ix2 p q := ⟨i 0, i 1, eq_ix2 i⟩
  rw [h p q]
  show _ = FloatOps.maximumf (FloatOps.addf (agg (ix2 p q)) _) (val_main_call1_v0 (F := F) (ix2 p q))
  rw [val_main_call1_v0_apply, val_main_call1_cst_apply]
  congr 2
  -- the row laid out by the reshape holds the bias of column q at (0, q)
  refine (shapeCast_a_1a_apply b shapeCasts_S128_S1x128 (0 : Fin 1) q).trans ?_
  -- and so does the bias broadcast to a row and then down the column
  refine ((broadcastInDim_apply _ Cert.ReferenceIdeal.Gen.bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_).symm
  exact broadcastInDim_apply _ Cert.ReferenceIdeal.Gen.bcast_S128_S1x128_1 b (ix2 (0 : Fin 1) q) (ix1 q) (fun a => match a with
    | ⟨0, _⟩ => by show q.val = if (128 : Nat) = 1 then 0 else q.val; rw [if_neg (by decide)])

end Cert.KernelIdeal.Bridges

end
-- ==== Proof.Matmul0.lean ====
import proofs.«175264_j42640435314985_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Matmul0

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The region's first operand array as the region finds it. -/
abbrev inA (V : (c : Dev nD) → (b : Ref sig .tc) → Buf (Elt Ideal) ((c : Thread nD τ).loc b)) (c : Dev nD) : (⟨S100000x128, .f32⟩ : BufTy).Contents (Elt Ideal) := V c main_arg0
/-- The region's second operand array as the region finds it. -/
abbrev inB (V : (c : Dev nD) → (b : Ref sig .tc) → Buf (Elt Ideal) ((c : Thread nD τ).loc b)) (c : Dev nD) : (⟨S128x128, .f32⟩ : BufTy).Contents (Elt Ideal) := V c main_arg2
/-- The region's result array after the last grid point's write-back. -/
abbrev outC (V : (c : Dev nD) → (b : Ref sig .tc) → Buf (Elt Ideal) ((c : Thread nD τ).loc b)) (c : Dev nD) : (⟨S100000x128, .f32⟩ : BufTy).Contents (Elt Ideal) := (dat0 V c).arrAt 2 cfg0.N

/-! ## The block product at an index -/

/-- The left operand's index at output index `i` and contraction index `q`: its row is the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column is the contraction index. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction index. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Its column is the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's payload at row `p`, column `q`: the row of the first block times the column of the second (rounding to
    bf16 is the identity on ideal values, and the accumulator starts at zero). -/
theorem pay_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  show FloatOps.matmul dot_S5000x128_S128x128_S5000x128_1_0_0_1_n_n none (truncf .bf16 x0 bitsLt_bf16_f32) (truncf .bf16 x1 bitsLt_bf16_f32) (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

/-! ## The whole product array -/

/-- The product of a 100000×128 array and a 128×128 array, index by index. -/
def matProd (a : (⟨S100000x128, .f32⟩ : BufTy).Contents (Elt Ideal)) (b : (⟨S128x128, .f32⟩ : BufTy).Contents (Elt Ideal)) :
    (⟨S100000x128, .f32⟩ : BufTy).Contents (Elt Ideal) :=
  fun i => ∑ k : Fin 128, a (ix2 (⟨(i 0).val, idx2_lt0 i⟩ : Fin 100000) k) * b (ix2 k (⟨(i 1).val, idx2_lt1 i⟩ : Fin 128))

theorem matProd_apply (a : (⟨S100000x128, .f32⟩ : BufTy).Contents (Elt Ideal)) (b : (⟨S128x128, .f32⟩ : BufTy).Contents (Elt Ideal)) (p : Fin 100000) (q : Fin 128) :
    matProd a b (ix2 p q) = ∑ k : Fin 128, a (ix2 p k) * b (ix2 k q) := rfl

theorem zeros : (![0, 0] : Fin 2 → Nat) = fun _ => 0 := funext fun a => by fin_cases a <;> rfl

/-- The index maps over the grid: the first operand's row block moves with the output's, which is the point's number;
    every other block index is zero. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- The first operand's block at point `t`, at a row and column inside the block, is the array at the output block's row. -/
theorem blockA (V : (c : Dev nD) → (b : Ref sig .tc) → Buf (Elt Ideal) ((c : Thread nD τ).loc b)) (c : Dev nD) (t : Fin cfg0.N)
    (p : Fin 5000) (k : Fin 128) (i : S100000x128.Idx) (hi : (i 0).val = win0_2.index t (0 : Fin 2) * 5000 + p.val) :
    (iblk0 V c 0 t : Vec Ideal S5000x128 .f32) (ix2 p k) = inA V c (ix2 (⟨(i 0).val, idx2_lt0 i⟩ : Fin 100000) k) := by
  obtain ⟨e0, e1, e2, e3, e4, e5⟩ := index_facts t
  show V c main_arg0 (((cfg0.win 0).blk t).view.emb (ix2 p k)) = V c main_arg0 _
  congr 1
  funext a; apply Fin.ext
  match a with
  | ⟨0, _⟩ => show win0_0.index t (0 : Fin 2) * 5000 + 1 * p.val = (i 0).val; omega
  | ⟨1, _⟩ => show win0_0.index t (1 : Fin 2) * 128 + 1 * k.val = k.val; omega

/-- The second operand's block at every point is the whole array. -/
theorem blockB (V : (c : Dev nD) → (b : Ref sig .tc) → Buf (Elt Ideal) ((c : Thread nD τ).loc b)) (c : Dev nD) (t : Fin cfg0.N)
    (k : Fin 128) (q : Fin 128) :
    (iblk0 V c 1 t : Vec Ideal S128x128 .f32) (ix2 k q) = inB V c (ix2 k q) := by
  obtain ⟨e0, e1, e2, e3, e4, e5⟩ := index_facts t
  show V c main_arg2 (((cfg0.win 1).blk t).view.emb (ix2 k q)) = V c main_arg2 _
  congr 1
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- WHAT POINT `t` WRITES BACK is block `t` of the product of the two arrays as the region finds them. -/
theorem flushed_eq (V : (c : Dev nD) → (b : Ref sig .tc) → Buf (Elt Ideal) ((c : Thread nD τ).loc b)) (c : Dev nD) (t : Fin cfg0.N) :
    (dat0 V c).flushed 2 t = ((cfg0.win 2).blk t).view.read (Elt Ideal) (matProd (inA V c) (inB V c)) := by
  show (cfg0.win 2).cut (grid0.coords t) ((dat0 V c).after 2 t) = _
  rw [after0_2]
  unfold out0_2
  rw [View.canon_unit_zero zeros]
  simp only [View.ld_unit_zero (S := S5000x128) zeros, View.ld_unit_zero (S := S128x128) zeros]
  obtain ⟨e0, e1, e2, e3, e4, e5⟩ := index_facts t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q) = matProd (inA V c) (inB V c) (((cfg0.win 2).blk t).view.emb (ix2 p q))
  rw [pay_apply]
  show _ = ∑ k : Fin 128, _ * _
  refine Finset.sum_congr rfl fun k _ => ?_
  rw [blockA V c t p k (((cfg0.win 2).blk t).view.emb (ix2 p q)) (by
    show win0_2.index t (0 : Fin 2) * 5000 + 1 * p.val = _; omega), blockB V c t k q]
  congr 3
  apply Fin.ext
  show q.val = win0_2.index t (1 : Fin 2) * 128 + 1 * q.val
  omega

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the array is in the block of the point numbered by its row divided by 5000. -/
theorem cover (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : cfg0.N = 20 := N_0
  obtain ⟨t, ht⟩ : ∃ t : Fin cfg0.N, t.val = (i 0).val / 5000 := ⟨⟨(i 0).val / 5000, lt_of_lt_of_eq (by omega) hN.symm⟩, rfl⟩
  obtain ⟨e0, e1, e2, e3, e4, e5⟩ := index_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE ARRAY after the last write-back is the product. -/
theorem array_eq (V : (c : Dev nD) → (b : Ref sig .tc) → Buf (Elt Ideal) ((c : Thread nD τ).loc b)) (c : Dev nD) :
    outC V c = matProd (inA V c) (inB V c) :=
  (dat0 V c).arrAt_eq_of_cover 2 (matProd (inA V c) (inB V c)) (fun t _ => flushed_eq V c t) cover

/-- Entry (p, q) of the region's result array: row p of the first operand array times column q of the second. -/
theorem value (V : (c : Dev nD) → (b : Ref sig .tc) → Buf (Elt Ideal) ((c : Thread nD τ).loc b)) (c : Dev nD) (p : Fin 100000) (q : Fin 128) :
    outC V c (ix2 p q) = ∑ k : Fin 128, inA V c (ix2 p k) * inB V c (ix2 k q) := by
  rw [array_eq, matProd_apply]

end Cert.KernelIdeal.Matmul0

end
-- ==== Proof.Scale1.lean ====
import proofs.«175264_j42640435314985_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Scale1

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable {F : FTy → Type} [FloatOps F]

/-- The region's first operand array as the region finds it. -/
abbrev inA (V : (c : Dev nD) → (b : Ref sig .tc) → Buf (Elt F) ((c : Thread nD τ).loc b)) (c : Dev nD) : (⟨S1700000x128, .f32⟩ : BufTy).Contents (Elt F) := V c main_v37
/-- The region's second operand array as the region finds it. -/
abbrev inB (V : (c : Dev nD) → (b : Ref sig .tc) → Buf (Elt F) ((c : Thread nD τ).loc b)) (c : Dev nD) : (⟨S1700000x1, .f32⟩ : BufTy).Contents (Elt F) := V c main_v38
/-- The region's result array after the last grid point's write-back. -/
abbrev outC (V : (c : Dev nD) → (b : Ref sig .tc) → Buf (Elt F) ((c : Thread nD τ).loc b)) (c : Dev nD) : (⟨S1700000x128, .f32⟩ : BufTy).Contents (Elt F) := (dat1 V c).arrAt 2 cfg1.N

/-- The zero offset of a rank-2 rectangle is the constant-zero function. -/
theorem zero_off : (![0, 0] : Fin 2 → Nat) = fun _ => 0 :=
  funext fun a => match a with | ⟨0, _⟩ => rfl | ⟨1, _⟩ => rfl

/-- The whole result: each row of the first operand times that row's one entry of the second. -/
abbrev rowScaled (a : S1700000x128.Idx → Elt F .f32) (n : S1700000x1.Idx → Elt F .f32) : S1700000x128.Idx → Elt F .f32 :=
  fun i => FloatOps.mulf (a i) (n (ix2 (n0 := 1700000) (i 0) (0 : Fin 1)))

/-- A column vector broadcast along the second axis reads, at row p and any column, its entry of row p. -/
theorem bcast_col (v : S10000x1.Idx → F .f32) (h : S10000x1.Broadcasts S10000x128) (p : Fin 10000) (q : Fin 128) :
    broadcastTo S10000x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The body's payload at an index of the block: the first block's entry times the second block's entry of that row. -/
theorem pay_apply (x0 : Vec F S10000x128 .f32) (x1 : Vec F S10000x1 .f32) (y : S10000x128.Idx) :
    k1_pay1 x0 x1 y = FloatOps.mulf (x0 y) (x1 (ix2 (n0 := 10000) (y 0) (0 : Fin 1))) := by
  obtain ⟨p, q, rfl⟩ : ∃ (p : Fin 10000) (q : Fin 128), y = ix2 p q := ⟨y 0, y 1, eq_ix2 y⟩
  unfold k1_pay1
  show FloatOps.mulf (shapeCast S10000x128 x0 _ (ix2 p q)) (broadcastTo S10000x128 (shapeCast S10000x1 x1 _) _ (ix2 p q)) = _
  rw [shapeCast_self, bcast_col, shapeCast_self]

/-- The printed index maps over the grid: at point t every window's block is block row t, block column 0. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt F) ((c : Thread nD τ).loc b))

/-- The first operand's block at point t sits in its array where the output's block sits in the output. -/
theorem blockA_read (c : Dev nD) (t : Fin cfg1.N) (y : S10000x128.Idx) :
    iblk1 V c 0 t y = inA V c (((cfg1.win 2).blk t).view.emb y) := by
  show V c main_v37 (((cfg1.win 0).blk t).view.emb y) = V c main_v37 (((cfg1.win 2).blk t).view.emb y)
  obtain ⟨e0, e1, e2, e3, e4, e5⟩ := index_facts t
  refine congrArg _ (funext fun a => Fin.ext ?_)
  match a with
  | ⟨0, _⟩ => show win1_0.index t (0 : Fin 2) * 10000 + 1 * (y 0).val = win1_2.index t (0 : Fin 2) * 10000 + 1 * (y 0).val; omega
  | ⟨1, _⟩ => show win1_0.index t (1 : Fin 2) * 128 + 1 * (y 1).val = win1_2.index t (1 : Fin 2) * 128 + 1 * (y 1).val; omega

/-- The second operand's block at point t, at a row of the block, is the array's entry of the row the output's block
    puts there. -/
theorem blockB_read (c : Dev nD) (t : Fin cfg1.N) (y : S10000x128.Idx) :
    iblk1 V c 1 t (ix2 (n0 := 10000) (y 0) (0 : Fin 1))
      = inB V c (ix2 (n0 := 1700000) ((((cfg1.win 2).blk t).view.emb y) 0) (0 : Fin 1)) := by
  show V c main_v38 (((cfg1.win 1).blk t).view.emb (ix2 (n0 := 10000) (y 0) (0 : Fin 1)))
    = V c main_v38 (ix2 (n0 := 1700000) ((((cfg1.win 2).blk t).view.emb y) 0) (0 : Fin 1))
  obtain ⟨e0, e1, e2, e3, e4, e5⟩ := index_facts t
  refine congrArg _ (funext fun a => Fin.ext ?_)
  match a with
  | ⟨0, _⟩ => show win1_1.index t (0 : Fin 2) * 10000 + 1 * (y 0).val = win1_2.index t (0 : Fin 2) * 10000 + 1 * (y 0).val; omega
  | ⟨1, _⟩ => show win1_1.index t (1 : Fin 2) * 1 + 1 * 0 = 0; omega

/-- What point t writes back is block t of the row-scaled array. -/
theorem flushed_eq (c : Dev nD) (t : Fin cfg1.N) :
    (dat1 V c).flushed 2 t = ((cfg1.win 2).blk t).view.read (Elt F) (rowScaled (inA V c) (inB V c)) := by
  show (cfg1.win 2).cut (grid1.coords t) ((dat1 V c).after 2 t) = _
  rw [after1_2]
  unfold out1_2
  rw [View.canon_unit_zero zero_off]
  simp only [View.ld_unit_zero (S := S10000x128) zero_off, View.ld_unit_zero (S := S10000x1) zero_off]
  funext y
  show k1_pay1 (iblk1 V c 0 t) (iblk1 V c 1 t) y = rowScaled (inA V c) (inB V c) (((cfg1.win 2).blk t).view.emb y)
  rw [pay_apply, blockA_read, blockB_read]

/-- An index of the array is in point t's block iff each coordinate is in the block's range on its axis. -/
theorem mem_blk (t : Fin cfg1.N) (i : S1700000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v39).slice (win1_2.rect t)).set ↔ _
  rw [View.set_slice_whole, Rect.mem_set_unit]
  exact Iff.rfl

/-- Every index of the array is in the block of the point its row falls in. -/
theorem cover (i : S1700000x128.Idx) :
    ∃ t : Fin cfg1.N, (cfg1.win 2).flush t = true ∧ i ∈ ((cfg1.win 2).blk t).view.set := by
  have hi0 : (i 0).val < 1700000 := (i 0).isLt
  have hi1 : (i 1).val < 128 := (i 1).isLt
  have hN : grid1.N = 170 := N_1
  let t : Fin cfg1.N := ⟨(i 0).val / 10000, by show _ < grid1.N; omega⟩
  obtain ⟨e0, e1, e2, e3, e4, e5⟩ := index_facts t
  have ht : t.val = (i 0).val / 10000 := rfl
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The result array after the last write-back is the row-scaled array. -/
theorem final (c : Dev nD) : outC V c = rowScaled (inA V c) (inB V c) :=
  (dat1 V c).arrAt_eq_of_cover 2 (rowScaled (inA V c) (inB V c)) (fun t _ => flushed_eq V c t) cover

end

/-- Entry (e, j) of the region's result array: entry (e, j) of the first operand array times row e's one entry of the second. -/
theorem value (V : (c : Dev nD) → (b : Ref sig .tc) → Buf (Elt F) ((c : Thread nD τ).loc b)) (c : Dev nD) (e : Fin 1700000) (j : Fin 128) :
    outC V c (ix2 e j) = FloatOps.mulf (inA V c (ix2 e j)) (inB V c (ix2 e (0 : Fin 1))) := by
  rw [final V c]

end Cert.KernelIdeal.Scale1

end
-- ==== Proof.BiasRelu2.lean ====
import proofs.«175264_j42640435314985_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BiasRelu2

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable {F : FTy → Type} [FloatOps F]

/-- The region's first operand array as the region finds it. -/
abbrev inA (V : (c : Dev nD) → (b : Ref sig .tc) → Buf (Elt F) ((c : Thread nD τ).loc b)) (c : Dev nD) : (⟨S100000x128, .f32⟩ : BufTy).Contents (Elt F) := V c main_v42
/-- The region's second operand array as the region finds it. -/
abbrev inB (V : (c : Dev nD) → (b : Ref sig .tc) → Buf (Elt F) ((c : Thread nD τ).loc b)) (c : Dev nD) : (⟨S1x128, .f32⟩ : BufTy).Contents (Elt F) := V c main_v43
/-- The region's result array after the last grid point's write-back. -/
abbrev outC (V : (c : Dev nD) → (b : Ref sig .tc) → Buf (Elt F) ((c : Thread nD τ).loc b)) (c : Dev nD) : (⟨S100000x128, .f32⟩ : BufTy).Contents (Elt F) := (dat2 V c).arrAt 2 cfg2.N

/-- The zero offsets of a whole-buffer access. -/
theorem zero_off : (![0, 0] : Fin 2 → Nat) = fun _ => 0 := funext fun a => by fin_cases a <;> rfl

/-- The whole result array as one function of the two operand arrays: at row `p`, column `q` the larger of
    zero and the sum of the first operand there and the second operand's only row at column `q`. -/
abbrev biasRelu (a : (⟨S100000x128, .f32⟩ : BufTy).Contents (Elt F)) (b : (⟨S1x128, .f32⟩ : BufTy).Contents (Elt F)) :
    (⟨S100000x128, .f32⟩ : BufTy).Contents (Elt F) :=
  fun i => FloatOps.maximumf (FloatOps.addf (a i) (b (ix2 (0 : Fin 1) (i 1)))) (FloatOps.ofBits .f32 0x00000000#32)

/-- The body's payload at row `r`, column `q` of the block: the row operand broadcast over the rows, added, and
    the larger of that and zero. -/
theorem payload_apply (x0 : Vec F S5000x128 .f32) (x1 : Vec F S1x128 .f32) (r : Fin 5000) (q : Fin 128) :
    k2_pay1 x0 x1 (ix2 r q) = FloatOps.maximumf (FloatOps.addf (x0 (ix2 r q)) (x1 (ix2 (0 : Fin 1) q))) (FloatOps.ofBits .f32 0x00000000#32) := by
  unfold k2_pay1
  show FloatOps.maximumf (FloatOps.addf (shapeCast S5000x128 x0 shapeCasts_S5000x128_S5000x128 (ix2 r q))
      (broadcastTo S5000x128 (shapeCast S1x128 x1 shapeCasts_S1x128_S1x128) broadcasts_S1x128_S5000x128 (ix2 r q))) _ = _
  rw [shapeCast_self, shapeCast_self, broadcastTo_1b_ab_apply]
  rfl

/-- The windows' index maps over the grid: the row-blocked windows sit at block row `t`, block column 0; the
    one-row operand's window at block (0, 0) at every point. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt F) ((c : Thread nD τ).loc b))

/-- The first operand's block at point `t` reads the array where the result's block at `t` sits. -/
theorem blockA_apply (c : Dev nD) (t : Fin cfg2.N) (y : S5000x128.Idx) :
    (iblk2 V c 0 t : Vec F S5000x128 .f32) y = inA V c (((cfg2.win 2).blk t).view.emb y) := by
  obtain ⟨e0, e1, e2, e3, e4, e5⟩ := index_facts t
  show V c main_v42 (((cfg2.win 0).blk t).view.emb y) = V c main_v42 (((cfg2.win 2).blk t).view.emb y)
  refine congrArg (V c main_v42) (funext fun a => Fin.ext ?_)
  match a with
  | ⟨0, _⟩ => show win2_0.index t (0 : Fin 2) * 5000 + 1 * (y 0).val = win2_2.index t (0 : Fin 2) * 5000 + 1 * (y 0).val; omega
  | ⟨1, _⟩ => show win2_0.index t (1 : Fin 2) * 128 + 1 * (y 1).val = win2_2.index t (1 : Fin 2) * 128 + 1 * (y 1).val; omega

/-- The second operand's block at every point is the whole one-row array. -/
theorem blockB_apply (c : Dev nD) (t : Fin cfg2.N) (y : S1x128.Idx) :
    (iblk2 V c 1 t : Vec F S1x128 .f32) y = inB V c y := by
  obtain ⟨e0, e1, e2, e3, e4, e5⟩ := index_facts t
  show V c main_v43 (((cfg2.win 1).blk t).view.emb y) = V c main_v43 y
  refine congrArg (V c main_v43) (funext fun a => Fin.ext ?_)
  match a with
  | ⟨0, _⟩ => show win2_1.index t (0 : Fin 2) * 1 + 1 * (y 0).val = (y 0).val; omega
  | ⟨1, _⟩ => show win2_1.index t (1 : Fin 2) * 128 + 1 * (y 1).val = (y 1).val; omega

/-- An element of the result's block keeps its column in the array. -/
theorem block_col (t : Fin cfg2.N) (r : Fin 5000) (q : Fin 128) :
    ((((cfg2.win 2).blk t).view.emb (ix2 r q) : S100000x128.Idx) 1 : Fin 128) = q := by
  obtain ⟨e0, e1, e2, e3, e4, e5⟩ := index_facts t
  apply Fin.ext
  show win2_2.index t (1 : Fin 2) * 128 + 1 * q.val = q.val
  omega

/-- What point `t` writes back is block `t` of `biasRelu` of the operand arrays as the region finds them. -/
theorem flushed_eq (c : Dev nD) (t : Fin cfg2.N) :
    (dat2 V c).flushed 2 t = ((cfg2.win 2).blk t).view.read (Elt F) (biasRelu (inA V c) (inB V c)) := by
  show (cfg2.win 2).cut (grid2.coords t) ((dat2 V c).after 2 t) = _
  rw [after2_2]
  unfold out2_2
  rw [View.canon_unit_zero zero_off]
  simp only [View.ld_unit_zero (S := S5000x128) zero_off, View.ld_unit_zero (S := S1x128) zero_off]
  funext j
  obtain ⟨r, q, rfl⟩ : ∃ (r : Fin 5000) (q : Fin 128), j = ix2 r q := ⟨j 0, j 1, eq_ix2 j⟩
  show k2_pay1 (iblk2 V c 0 t) (iblk2 V c 1 t) (ix2 r q)
    = FloatOps.maximumf (FloatOps.addf (inA V c (((cfg2.win 2).blk t).view.emb (ix2 r q)))
        (inB V c (ix2 (0 : Fin 1) ((((cfg2.win 2).blk t).view.emb (ix2 r q) : S100000x128.Idx) 1 : Fin 128)))) (FloatOps.ofBits .f32 0x00000000#32)
  rw [payload_apply, blockA_apply, blockB_apply, block_col]

/-- An index of the array is in point `t`'s block iff each coordinate is in the block's range on its axis. -/
theorem mem_block (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v44).slice (win2_2.rect t)).set ↔ _
  rw [View.set_slice_whole, Rect.mem_set_unit]
  exact Iff.rfl

/-- Every index of the array is in some point's block: row `p` in the block of point `p / 5000`. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨e0, e1, e2, e3, e4, e5⟩ := index_facts t
  have ht : t.val = (i 0).val / 5000 := rfl
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The result array after the last point is `biasRelu` of the operand arrays. -/
theorem final (c : Dev nD) : outC V c = biasRelu (inA V c) (inB V c) :=
  (dat2 V c).arrAt_eq_of_cover 2 (biasRelu (inA V c) (inB V c)) (fun t _ => flushed_eq V c t) cover

/-- Entry (p, q) of the region's result array: the larger of zero and entry (p, q) of the first operand array plus entry q of the second's one row. -/
theorem value (V : (c : Dev nD) → (b : Ref sig .tc) → Buf (Elt F) ((c : Thread nD τ).loc b)) (c : Dev nD) (p : Fin 100000) (q : Fin 128) :
    outC V c (ix2 p q) = FloatOps.maximumf (FloatOps.addf (inA V c (ix2 p q)) (inB V c (ix2 (0 : Fin 1) q))) (FloatOps.ofBits .f32 0x00000000#32) := by
  rw [final V c]

end Cert.KernelIdeal.BiasRelu2

end
-- ==== Proof.Matmul3.lean ====
import proofs.«175264_j42640435314985_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Matmul3

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The region's first operand array as the region finds it. -/
abbrev inA (V : (c : Dev nD) → (b : Ref sig .tc) → Buf (Elt Ideal) ((c : Thread nD τ).loc b)) (c : Dev nD) : (⟨S100000x128, .f32⟩ : BufTy).Contents (Elt Ideal) := V c main_v44
/-- The region's second operand array as the region finds it. -/
abbrev inB (V : (c : Dev nD) → (b : Ref sig .tc) → Buf (Elt Ideal) ((c : Thread nD τ).loc b)) (c : Dev nD) : (⟨S128x128, .f32⟩ : BufTy).Contents (Elt Ideal) := V c main_arg4
/-- The region's result array after the last grid point's write-back. -/
abbrev outC (V : (c : Dev nD) → (b : Ref sig .tc) → Buf (Elt Ideal) ((c : Thread nD τ).loc b)) (c : Dev nD) : (⟨S100000x128, .f32⟩ : BufTy).Contents (Elt Ideal) := (dat3 V c).arrAt 2 cfg3.N

/-! ## The block product at an index -/

/-- The left operand's index at output index `i` and contraction index `q`: its row is the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column is the contraction index. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction index. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Its column is the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's payload at row `p`, column `q`: the row of the first block times the column of the second (the cast of the first block to its own shape changes nothing, rounding to
    bf16 is the identity on ideal values, and the accumulator starts at zero). -/
theorem pay_apply (x0 : Vec Ideal S5000x128 .f32) (x1 : Vec Ideal S128x128 .f32) (p : Fin 5000) (q : Fin 128) :
    k3_pay1 x0 x1 (ix2 p q) = ∑ k : Fin 128, x0 (ix2 p k) * x1 (ix2 k q) := by
  unfold k3_pay1
  show FloatOps.matmul dot_S5000x128_S128x128_S5000x128_1_0_0_1_n_n none (truncf .bf16 (shapeCast S5000x128 x0 shapeCasts_S5000x128_S5000x128) bitsLt_bf16_f32) (truncf .bf16 x1 bitsLt_bf16_f32) (constant (F := Ideal) S5000x128 .f32 0x00000000#32) (ix2 p q) = _
  rw [shapeCast_self]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

/-! ## The whole product array -/

/-- The product of a 100000×128 array and a 128×128 array, index by index. -/
def matProd (a : (⟨S100000x128, .f32⟩ : BufTy).Contents (Elt Ideal)) (b : (⟨S128x128, .f32⟩ : BufTy).Contents (Elt Ideal)) :
    (⟨S100000x128, .f32⟩ : BufTy).Contents (Elt Ideal) :=
  fun i => ∑ k : Fin 128, a (ix2 (⟨(i 0).val, idx2_lt0 i⟩ : Fin 100000) k) * b (ix2 k (⟨(i 1).val, idx2_lt1 i⟩ : Fin 128))

theorem matProd_apply (a : (⟨S100000x128, .f32⟩ : BufTy).Contents (Elt Ideal)) (b : (⟨S128x128, .f32⟩ : BufTy).Contents (Elt Ideal)) (p : Fin 100000) (q : Fin 128) :
    matProd a b (ix2 p q) = ∑ k : Fin 128, a (ix2 p k) * b (ix2 k q) := rfl

theorem zeros : (![0, 0] : Fin 2 → Nat) = fun _ => 0 := funext fun a => by fin_cases a <;> rfl

/-- The index maps over the grid: the first operand's row block moves with the output's, which is the point's number;
    every other block index is zero. -/
theorem index_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) = t.val :=
  (by decide +kernel : ∀ t : Fin grid3.N, _)

/-- The first operand's block at point `t`, at a row and column inside the block, is the array at the output block's row. -/
theorem blockA (V : (c : Dev nD) → (b : Ref sig .tc) → Buf (Elt Ideal) ((c : Thread nD τ).loc b)) (c : Dev nD) (t : Fin cfg3.N)
    (p : Fin 5000) (k : Fin 128) (i : S100000x128.Idx) (hi : (i 0).val = win3_2.index t (0 : Fin 2) * 5000 + p.val) :
    (iblk3 V c 0 t : Vec Ideal S5000x128 .f32) (ix2 p k) = inA V c (ix2 (⟨(i 0).val, idx2_lt0 i⟩ : Fin 100000) k) := by
  obtain ⟨e0, e1, e2, e3, e4, e5⟩ := index_facts t
  show V c main_v44 (((cfg3.win 0).blk t).view.emb (ix2 p k)) = V c main_v44 _
  congr 1
  funext a; apply Fin.ext
  match a with
  | ⟨0, _⟩ => show win3_0.index t (0 : Fin 2) * 5000 + 1 * p.val = (i 0).val; omega
  | ⟨1, _⟩ => show win3_0.index t (1 : Fin 2) * 128 + 1 * k.val = k.val; omega

/-- The second operand's block at every point is the whole array. -/
theorem blockB (V : (c : Dev nD) → (b : Ref sig .tc) → Buf (Elt Ideal) ((c : Thread nD τ).loc b)) (c : Dev nD) (t : Fin cfg3.N)
    (k : Fin 128) (q : Fin 128) :
    (iblk3 V c 1 t : Vec Ideal S128x128 .f32) (ix2 k q) = inB V c (ix2 k q) := by
  obtain ⟨e0, e1, e2, e3, e4, e5⟩ := index_facts t
  show V c main_arg4 (((cfg3.win 1).blk t).view.emb (ix2 k q)) = V c main_arg4 _
  congr 1
  funext a; apply Fin.ext
  match a with
  | ⟨0, _⟩ => show win3_1.index t (0 : Fin 2) * 128 + 1 * k.val = k.val; omega
  | ⟨1, _⟩ => show win3_1.index t (1 : Fin 2) * 128 + 1 * q.val = q.val; omega

/-- WHAT POINT `t` WRITES BACK is block `t` of the product of the two arrays as the region finds them. -/
theorem flushed_eq (V : (c : Dev nD) → (b : Ref sig .tc) → Buf (Elt Ideal) ((c : Thread nD τ).loc b)) (c : Dev nD) (t : Fin cfg3.N) :
    (dat3 V c).flushed 2 t = ((cfg3.win 2).blk t).view.read (Elt Ideal) (matProd (inA V c) (inB V c)) := by
  show (cfg3.win 2).cut (grid3.coords t) ((dat3 V c).after 2 t) = _
  rw [after3_2]
  unfold out3_2
  rw [View.canon_unit_zero zeros]
  simp only [View.ld_unit_zero (S := S5000x128) zeros, View.ld_unit_zero (S := S128x128) zeros]
  obtain ⟨e0, e1, e2, e3, e4, e5⟩ := index_facts t
  funext j
  obtain ⟨p, q, rfl⟩ : ∃ (p : Fin 5000) (q : Fin 128), j = ix2 p q := ⟨j 0, j 1, eq_ix2 j⟩
  show k3_pay1 (iblk3 V c 0 t) (iblk3 V c 1 t) (ix2 p q) = matProd (inA V c) (inB V c) (((cfg3.win 2).blk t).view.emb (ix2 p q))
  rw [pay_apply]
  show _ = ∑ k : Fin 128, _ * _
  refine Finset.sum_congr rfl fun k _ => ?_
  rw [blockA V c t p k (((cfg3.win 2).blk t).view.emb (ix2 p q)) (by
    show win3_2.index t (0 : Fin 2) * 5000 + 1 * p.val = _; omega), blockB V c t k q]
  congr 3
  apply Fin.ext
  show q.val = win3_2.index t (1 : Fin 2) * 128 + 1 * q.val
  omega

/-- An index of the array is in point `t`'s block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v45).slice (win3_2.rect t)).set ↔ _
  rw [View.set_slice_whole, Rect.mem_set_unit]
  exact Iff.rfl

/-- Every index of the array is in the block of the point numbered by its row divided by 5000. -/
theorem cover (i : S100000x128.Idx) :
    ∃ t : Fin cfg3.N, (cfg3.win 2).flush t = true ∧ i ∈ ((cfg3.win 2).blk t).view.set := by
  have hi0 : (i 0).val < 100000 := idx2_lt0 i
  have hi1 : (i 1).val < 128 := idx2_lt1 i
  have hN : cfg3.N = 20 := N_3
  obtain ⟨t, ht⟩ : ∃ t : Fin cfg3.N, t.val = (i 0).val / 5000 := ⟨⟨(i 0).val / 5000, lt_of_lt_of_eq (by omega) hN.symm⟩, rfl⟩
  obtain ⟨e0, e1, e2, e3, e4, e5⟩ := index_facts t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- THE ARRAY after the last write-back is the product. -/
theorem array_eq (V : (c : Dev nD) → (b : Ref sig .tc) → Buf (Elt Ideal) ((c : Thread nD τ).loc b)) (c : Dev nD) :
    outC V c = matProd (inA V c) (inB V c) :=
  (dat3 V c).arrAt_eq_of_cover 2 (matProd (inA V c) (inB V c)) (fun t _ => flushed_eq V c t) cover

/-- Entry (p, q) of the region's result array: row p of the first operand array times column q of the second. -/
theorem value (V : (c : Dev nD) → (b : Ref sig .tc) → Buf (Elt Ideal) ((c : Thread nD τ).loc b)) (c : Dev nD) (p : Fin 100000) (q : Fin 128) :
    outC V c (ix2 p q) = ∑ k : Fin 128, inA V c (ix2 p k) * inB V c (ix2 k q) := by
  rw [array_eq, matProd_apply]

end Cert.KernelIdeal.Matmul3

end
-- ==== Proof.Scale4.lean ====
import proofs.«175264_j42640435314985_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Scale4

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable {F : FTy → Type} [FloatOps F]

/-- The region's first operand array as the region finds it. -/
abbrev inA (V : (c : Dev nD) → (b : Ref sig .tc) → Buf (Elt F) ((c : Thread nD τ).loc b)) (c : Dev nD) : (⟨S1700000x128, .f32⟩ : BufTy).Contents (Elt F) := V c main_v52
/-- The region's second operand array as the region finds it. -/
abbrev inB (V : (c : Dev nD) → (b : Ref sig .tc) → Buf (Elt F) ((c : Thread nD τ).loc b)) (c : Dev nD) : (⟨S1700000x1, .f32⟩ : BufTy).Contents (Elt F) := V c main_v53
/-- The region's result array after the last grid point's write-back. -/
abbrev outC (V : (c : Dev nD) → (b : Ref sig .tc) → Buf (Elt F) ((c : Thread nD τ).loc b)) (c : Dev nD) : (⟨S1700000x128, .f32⟩ : BufTy).Contents (Elt F) := (dat4 V c).arrAt 2 cfg4.N

/-- The zero offset of a rank-2 rectangle is the constant-zero function. -/
theorem zero_off : (![0, 0] : Fin 2 → Nat) = fun _ => 0 :=
  funext fun a => match a with | ⟨0, _⟩ => rfl | ⟨1, _⟩ => rfl

/-- The whole result: each row of the first operand times that row's one entry of the second. -/
abbrev rowScaled (a : S1700000x128.Idx → Elt F .f32) (n : S1700000x1.Idx → Elt F .f32) : S1700000x128.Idx → Elt F .f32 :=
  fun i => FloatOps.mulf (a i) (n (ix2 (n0 := 1700000) (i 0) (0 : Fin 1)))

/-- A column vector broadcast along the second axis reads, at row p and any column, its entry of row p. -/
theorem bcast_col (v : S10000x1.Idx → F .f32) (h : S10000x1.Broadcasts S10000x128) (p : Fin 10000) (q : Fin 128) :
    broadcastTo S10000x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The body's payload at an index of the block: the first block's entry times the second block's entry of that row. -/
theorem pay_apply (x0 : Vec F S10000x128 .f32) (x1 : Vec F S10000x1 .f32) (y : S10000x128.Idx) :
    k4_pay1 x0 x1 y = FloatOps.mulf (x0 y) (x1 (ix2 (n0 := 10000) (y 0) (0 : Fin 1))) := by
  obtain ⟨p, q, rfl⟩ : ∃ (p : Fin 10000) (q : Fin 128), y = ix2 p q := ⟨y 0, y 1, eq_ix2 y⟩
  unfold k4_pay1
  show FloatOps.mulf (shapeCast S10000x128 x0 _ (ix2 p q)) (broadcastTo S10000x128 (shapeCast S10000x1 x1 _) _ (ix2 p q)) = _
  rw [shapeCast_self, bcast_col, shapeCast_self]

/-- The printed index maps over the grid: at point t every window's block is block row t, block column 0. -/
theorem index_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

section
variable (V : (c : Dev nD) → (b : Ref sig .tc) → Buf (Elt F) ((c : Thread nD τ).loc b))

/-- The first operand's block at point t sits in its array where the output's block sits in the output. -/
theorem blockA_read (c : Dev nD) (t : Fin cfg4.N) (y : S10000x128.Idx) :
    iblk4 V c 0 t y = inA V c (((cfg4.win 2).blk t).view.emb y) := by
  show V c main_v52 (((cfg4.win 0).blk t).view.emb y) = V c main_v52 (((cfg4.win 2).blk t).view.emb y)
  obtain ⟨e0, e1, e2, e3, e4, e5⟩ := index_facts t
  refine congrArg _ (funext fun a => Fin.ext ?_)
  match a with
  | ⟨0, _⟩ => show win4_0.index t (0 : Fin 2) * 10000 + 1 * (y 0).val = win4_2.index t (0 : Fin 2) * 10000 + 1 * (y 0).val; omega
  | ⟨1, _⟩ => show win4_0.index t (1 : Fin 2) * 128 + 1 * (y 1).val = win4_2.index t (1 : Fin 2) * 128 + 1 * (y 1).val; omega

/-- The second operand's block at point t, at a row of the block, is the array's entry of the row the output's block
    puts there. -/
theorem blockB_read (c : Dev nD) (t : Fin cfg4.N) (y : S10000x128.Idx) :
    iblk4 V c 1 t (ix2 (n0 := 10000) (y 0) (0 : Fin 1))
      = inB V c (ix2 (n0 := 1700000) ((((cfg4.win 2).blk t).view.emb y) 0) (0 : Fin 1)) := by
  show V c main_v53 (((cfg4.win 1).blk t).view.emb (ix2 (n0 := 10000) (y 0) (0 : Fin 1)))
    = V c main_v53 (ix2 (n0 := 1700000) ((((cfg4.win 2).blk t).view.emb y) 0) (0 : Fin 1))
  obtain ⟨e0, e1, e2, e3, e4, e5⟩ := index_facts t
  refine congrArg _ (funext fun a => Fin.ext ?_)
  match a with
  | ⟨0, _⟩ => show win4_1.index t (0 : Fin 2) * 10000 + 1 * (y 0).val = win4_2.index t (0 : Fin 2) * 10000 + 1 * (y 0).val; omega
  | ⟨1, _⟩ => show win4_1.index t (1 : Fin 2) * 1 + 1 * 0 = 0; omega

/-- What point t writes back is block t of the row-scaled array. -/
theorem flushed_eq (c : Dev nD) (t : Fin cfg4.N) :
    (dat4 V c).flushed 2 t = ((cfg4.win 2).blk t).view.read (Elt F) (rowScaled (inA V c) (inB V c)) := by
  show (cfg4.win 2).cut (grid4.coords t) ((dat4 V c).after 2 t) = _
  rw [after4_2]
  unfold out4_2
  rw [View.canon_unit_zero zero_off]
  simp only [View.ld_unit_zero (S := S10000x128) zero_off, View.ld_unit_zero (S := S10000x1) zero_off]
  funext y
  show k4_pay1 (iblk4 V c 0 t) (iblk4 V c 1 t) y = rowScaled (inA V c) (inB V c) (((cfg4.win 2).blk t).view.emb y)
  rw [pay_apply, blockA_read, blockB_read]

/-- An index of the array is in point t's block iff each coordinate is in the block's range on its axis. -/
theorem mem_blk (t : Fin cfg4.N) (i : S1700000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v54).slice (win4_2.rect t)).set ↔ _
  rw [View.set_slice_whole, Rect.mem_set_unit]
  exact Iff.rfl

/-- Every index of the array is in the block of the point its row falls in. -/
theorem cover (i : S1700000x128.Idx) :
    ∃ t : Fin cfg4.N, (cfg4.win 2).flush t = true ∧ i ∈ ((cfg4.win 2).blk t).view.set := by
  have hi0 : (i 0).val < 1700000 := (i 0).isLt
  have hi1 : (i 1).val < 128 := (i 1).isLt
  have hN : grid4.N = 170 := N_4
  let t : Fin cfg4.N := ⟨(i 0).val / 10000, by show _ < grid4.N; omega⟩
  obtain ⟨e0, e1, e2, e3, e4, e5⟩ := index_facts t
  have ht : t.val = (i 0).val / 10000 := rfl
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 128 ≤ (i 1).val ∧ (i 1).val < win4_2.index t (1 : Fin 2) * 128 + 128; omega

/-- The result array after the last write-back is the row-scaled array. -/
theorem final (c : Dev nD) : outC V c = rowScaled (inA V c) (inB V c) :=
  (dat4 V c).arrAt_eq_of_cover 2 (rowScaled (inA V c) (inB V c)) (fun t _ => flushed_eq V c t) cover

end

/-- Entry (e, j) of the region's result array: entry (e, j) of the first operand array times row e's one entry of the second. -/
theorem value (V : (c : Dev nD) → (b : Ref sig .tc) → Buf (Elt F) ((c : Thread nD τ).loc b)) (c : Dev nD) (e : Fin 1700000) (j : Fin 128) :
    outC V c (ix2 e j) = FloatOps.mulf (inA V c (ix2 e j)) (inB V c (ix2 e (0 : Fin 1))) := by
  rw [final V c]

end Cert.KernelIdeal.Scale4

end
-- ==== Proof.BiasRelu5.lean ====
import proofs.«175264_j42640435314985_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BiasRelu5

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable {F : FTy → Type} [FloatOps F]

/-- The region's first operand array as the region finds it. -/
abbrev inA (V : (c : Dev nD) → (b : Ref sig .tc) → Buf (Elt F) ((c : Thread nD τ).loc b)) (c : Dev nD) : (⟨S100000x128, .f32⟩ : BufTy).Contents (Elt F) := V c main_v57
/-- The region's second operand array as the region finds it. -/
abbrev inB (V : (c : Dev nD) → (b : Ref sig .tc) → Buf (Elt F) ((c : Thread nD τ).loc b)) (c : Dev nD) : (⟨S1x128, .f32⟩ : BufTy).Contents (Elt F) := V c main_v58
/-- The region's result array after the last grid point's write-back. -/
abbrev outC (V : (c : Dev nD) → (b : Ref sig .tc) → Buf (Elt F) ((c : Thread nD τ).loc b)) (c : Dev nD) : (⟨S100000x128, .f32⟩ : BufTy).Contents (Elt F) := (dat5 V c).arrAt 2 cfg5.N

/-- The zero offsets of a whole-buffer access. -/
theorem zero_off : (![0, 0] : Fin 2 → Nat) = fun _ => 0 := funext fun a => by fin_cases a <;> rfl

/-- The whole result array as one function of the two operand arrays: at row `p`, column `q` the larger of
    zero and the sum of the first operand there and the second operand's only row at column `q`. -/
abbrev biasRelu (a : (⟨S100000x128, .f32⟩ : BufTy).Contents (Elt F)) (b : (⟨S1x128, .f32⟩ : BufTy).Contents (Elt F)) :
    (⟨S100000x128, .f32⟩ : BufTy).Contents (Elt F) :=
  fun i => FloatOps.maximumf (FloatOps.addf (a i) (b (ix2 (0 : Fin 1) (i 1)))) (FloatOps.ofBits .f32 0x00000000#32)

/-- The body's payload at row `r`, column `q` of the block: the row operand broadcast over the rows, added, and
    the larger of that and zero. -/
theorem payload_apply (x0 : Vec F S5000x128 .f32) (x1 : Vec F S1x128 .f32) (r : Fin 5000) (q : Fin 128) :
    k5_pay1 x0 x1 (ix2 r q) = FloatOps.maximumf (FloatOps.addf (x0 (ix2 r q)) (x1 (ix2 (0 : Fin 1) q))) (FloatOps.ofBits .f32 0x00000000#32) := by
  unfold k5_pay1
  show FloatOps.maximumf (FloatOps.addf (shapeCast S5000x128 x0 shapeCasts_S5000x128_S5000x128 (ix2 r q))
      (broadcastTo S5000x128 (shapeCast S1x128 x1 shapeCasts_S1x128_S1x128) broadcasts_S1x128_S5000x128 (ix2 r q))) _ = _
  rw [shapeCast_self, shapeCast_self, broadcastTo_1b_ab_apply]
  rfl

/-- The windows' index maps over the grid: the row-blocked windows sit at block row `t`, block column 0; the
    one-row operand's window at block (0, 0) at every point. -/
theorem index_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

variable (V : (c : Dev nD) → (b : Ref sig .tc) → Buf (Elt F) ((c : Thread nD τ).loc b))

/-- The first operand's block at point `t` reads the array where the result's block at `t` sits. -/
theorem blockA_apply (c : Dev nD) (t : Fin cfg5.N) (y : S5000x128.Idx) :
    (iblk5 V c 0 t : Vec F S5000x128 .f32) y = inA V c (((cfg5.win 2).blk t).view.emb y) := by
  obtain ⟨e0, e1, e2, e3, e4, e5⟩ := index_facts t
  show V c main_v57 (((cfg5.win 0).blk t).view.emb y) = V c main_v57 (((cfg5.win 2).blk t).view.emb y)
  refine congrArg (V c main_v57) (funext fun a => Fin.ext ?_)
  match a with
  | ⟨0, _⟩ => show win5_0.index t (0 : Fin 2) * 5000 + 1 * (y 0).val = win5_2.index t (0 : Fin 2) * 5000 + 1 * (y 0).val; omega
  | ⟨1, _⟩ => show win5_0.index t (1 : Fin 2) * 128 + 1 * (y 1).val = win5_2.index t (1 : Fin 2) * 128 + 1 * (y 1).val; omega

/-- The second operand's block at every point is the whole one-row array. -/
theorem blockB_apply (c : Dev nD) (t : Fin cfg5.N) (y : S1x128.Idx) :
    (iblk5 V c 1 t : Vec F S1x128 .f32) y = inB V c y := by
  obtain ⟨e0, e1, e2, e3, e4, e5⟩ := index_facts t
  show V c main_v58 (((cfg5.win 1).blk t).view.emb y) = V c main_v58 y
  refine congrArg (V c main_v58) (funext fun a => Fin.ext ?_)
  match a with
  | ⟨0, _⟩ => show win5_1.index t (0 : Fin 2) * 1 + 1 * (y 0).val = (y 0).val; omega
  | ⟨1, _⟩ => show win5_1.index t (1 : Fin 2) * 128 + 1 * (y 1).val = (y 1).val; omega

/-- An element of the result's block keeps its column in the array. -/
theorem block_col (t : Fin cfg5.N) (r : Fin 5000) (q : Fin 128) :
    ((((cfg5.win 2).blk t).view.emb (ix2 r q) : S100000x128.Idx) 1 : Fin 128) = q := by
  obtain ⟨e0, e1, e2, e3, e4, e5⟩ := index_facts t
  apply Fin.ext
  show win5_2.index t (1 : Fin 2) * 128 + 1 * q.val = q.val
  omega

/-- What point `t` writes back is block `t` of `biasRelu` of the operand arrays as the region finds them. -/
theorem flushed_eq (c : Dev nD) (t : Fin cfg5.N) :
    (dat5 V c).flushed 2 t = ((cfg5.win 2).blk t).view.read (Elt F) (biasRelu (inA V c) (inB V c)) := by
  show (cfg5.win 2).cut (grid5.coords t) ((dat5 V c).after 2 t) = _
  rw [after5_2]
  unfold out5_2
  rw [View.canon_unit_zero zero_off]
  simp only [View.ld_unit_zero (S := S5000x128) zero_off, View.ld_unit_zero (S := S1x128) zero_off]
  funext j
  obtain ⟨r, q, rfl⟩ : ∃ (r : Fin 5000) (q : Fin 128), j = ix2 r q := ⟨j 0, j 1, eq_ix2 j⟩
  show k5_pay1 (iblk5 V c 0 t) (iblk5 V c 1 t) (ix2 r q)
    = FloatOps.maximumf (FloatOps.addf (inA V c (((cfg5.win 2).blk t).view.emb (ix2 r q)))
        (inB V c (ix2 (0 : Fin 1) ((((cfg5.win 2).blk t).view.emb (ix2 r q) : S100000x128.Idx) 1 : Fin 128)))) (FloatOps.ofBits .f32 0x00000000#32)
  rw [payload_apply, blockA_apply, blockB_apply, block_col]

/-- An index of the array is in point `t`'s block iff each coordinate is in the block's range on its axis. -/
theorem mem_block (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v59).slice (win5_2.rect t)).set ↔ _
  rw [View.set_slice_whole, Rect.mem_set_unit]
  exact Iff.rfl

/-- Every index of the array is in some point's block: row `p` in the block of point `p / 5000`. -/
theorem cover (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  have hN : cfg5.N = 20 := N_5
  let t : Fin cfg5.N := ⟨(i 0).val / 5000, by rw [hN]; omega⟩
  obtain ⟨e0, e1, e2, e3, e4, e5⟩ := index_facts t
  have ht : t.val = (i 0).val / 5000 := rfl
  refine ⟨t, flush5_2 t, ?_⟩
  rw [mem_block]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- The result array after the last point is `biasRelu` of the operand arrays. -/
theorem final (c : Dev nD) : outC V c = biasRelu (inA V c) (inB V c) :=
  (dat5 V c).arrAt_eq_of_cover 2 (biasRelu (inA V c) (inB V c)) (fun t _ => flushed_eq V c t) cover

/-- Entry (p, q) of the region's result array: the larger of zero and entry (p, q) of the first operand array plus entry q of the second's one row. -/
theorem value (V : (c : Dev nD) → (b : Ref sig .tc) → Buf (Elt F) ((c : Thread nD τ).loc b)) (c : Dev nD) (p : Fin 100000) (q : Fin 128) :
    outC V c (ix2 p q) = FloatOps.maximumf (FloatOps.addf (inA V c (ix2 p q)) (inB V c (ix2 (0 : Fin 1) q))) (FloatOps.ofBits .f32 0x00000000#32) := by
  rw [final V c]

end Cert.KernelIdeal.BiasRelu5

end
-- ==== Proof.Layers.lean ====
import proofs.«175264_j42640435314985_1_alg».proof.Proof.Gen.KernelIdeal.Frame
import proofs.«175264_j42640435314985_1_alg».proof.Proof.RefRead
import proofs.«175264_j42640435314985_1_alg».proof.Proof.HostStages
import proofs.«175264_j42640435314985_1_alg».proof.Proof.Walk
import proofs.«175264_j42640435314985_1_alg».proof.Proof.Bridges
import proofs.«175264_j42640435314985_1_alg».proof.Proof.Matmul0
import proofs.«175264_j42640435314985_1_alg».proof.Proof.Scale1
import proofs.«175264_j42640435314985_1_alg».proof.Proof.BiasRelu2
import proofs.«175264_j42640435314985_1_alg».proof.Proof.Matmul3
import proofs.«175264_j42640435314985_1_alg».proof.Proof.Scale4
import proofs.«175264_j42640435314985_1_alg».proof.Proof.BiasRelu5

set_option maxRecDepth 16384

noncomputable section

/-!
  The kernel's @main, boundary by boundary, against the reference's stages, at the ideal instance.

  A graph convolution layer is: a dense product h·W; the rows of it gathered along the edges' source list, each
  scaled by its edge's weight; the scaled rows summed into their target nodes; the bias added and the negative part
  cut off. The reference does the product, the scaling and the bias-and-relu as host operations; the kernel does each
  in a pallas_call, tile by tile, and everything else with the reference's own host operations. So at every
  boundary of @main the buffer that carries the layer's intermediate holds exactly the reference's stage: the
  product because a tile's rows of a product are the product's rows (the sums over k are the same sums, rounding to
  bf16 being the identity on ideal values); the scaled rows and the bias-and-relu because they are pointwise; the
  host stretches because they are the same operations on equal operands. The two layers are composed the same way
  in both programs, and the result is their two outputs side by side.
-/

namespace Cert.KernelIdeal.Layers

open Cert.KernelIdeal Cert.KernelIdeal.Gen Idealize.ShloMosaic Idealize.ShloMosaic.TcCoe Idealize.SL.Sem
open Cert.ReferenceIdeal.ReadP

variable (m : (ℓ : Loc nD τ sig) → Buf (Elt Ideal) ℓ) (ρ : Dev nD → PrngReg) (c : Dev nD)

/-- The node features at launch. -/
abbrev a0 : (⟨S100000x128, .f32⟩ : BufTy).Contents (Elt Ideal) := m ((c : Thread nD τ).loc main_arg0)
/-- The edge array at launch. -/
abbrev a1 : (⟨S2x1600000, .i32⟩ : BufTy).Contents (Elt Ideal) := m ((c : Thread nD τ).loc main_arg1)
/-- The first layer's weights at launch. -/
abbrev a2 : (⟨S128x128, .f32⟩ : BufTy).Contents (Elt Ideal) := m ((c : Thread nD τ).loc main_arg2)
/-- The first layer's bias at launch. -/
abbrev a3 : (⟨S128, .f32⟩ : BufTy).Contents (Elt Ideal) := m ((c : Thread nD τ).loc main_arg3)
/-- The second layer's weights at launch. -/
abbrev a4 : (⟨S128x128, .f32⟩ : BufTy).Contents (Elt Ideal) := m ((c : Thread nD τ).loc main_arg4)
/-- The second layer's bias at launch. -/
abbrev a5 : (⟨S128, .f32⟩ : BufTy).Contents (Elt Ideal) := m ((c : Thread nD τ).loc main_arg5)

/-! ## Before the first call -/

theorem v5_W3 : W3 m ρ c (Proc.devRef .tc main_v5) = val_main_v5 (a1 m c) :=
  HostStages.pre_v5 (W0 m ρ c) (a1 m c) rfl
theorem v6_W3 : W3 m ρ c (Proc.devRef .tc main_v6) = val_main_v6 (a1 m c) :=
  HostStages.pre_v6 (W0 m ρ c) (a1 m c) rfl
theorem v29_W3 : W3 m ρ c (Proc.devRef .tc main_v29) = val_main_v29 (a1 m c) :=
  HostStages.pre_v29 (W0 m ρ c) (a1 m c) rfl

/-! ## The first layer -/

/-- After the first product call: the features times the first weights. -/
theorem v30_W4 : W4 m ρ c (Proc.devRef .tc main_v30) = val_main_v30 (a0 m c) (a2 m c) := by
  have hA : Matmul0.inA (V3 m ρ) c = a0 m c := Walk.arg0_W3 m ρ c
  have hB : Matmul0.inB (V3 m ρ) c = a2 m c := Walk.arg2_W3 m ρ c
  refine (W4_arr m ρ c 2).trans ?_
  exact Bridges.dot_stage (a0 m c) (a2 m c) (Matmul0.outC (V3 m ρ) c) (fun p q => by rw [← hA, ← hB]; exact Matmul0.value (V3 m ρ) c p q)

/-- Its rows gathered along the source list. -/
theorem v37_W5 : W5 m ρ c (Proc.devRef .tc main_v37) = val_main_v37 (a0 m c) (a1 m c) (a2 m c) :=
  HostStages.host1_v37 (W4 m ρ c) _ (a1 m c) (v30_W4 m ρ c) ((Walk.v5_W4 m ρ c).trans (v5_W3 m ρ c))

/-- The edge weights as a column. -/
theorem v38_W5 : W5 m ρ c (Proc.devRef .tc main_v38) = shapeCast S1700000x1 (val_main_v29 (a1 m c)) shapeCasts_S1700000_S1700000x1 :=
  HostStages.host1_v38 (W4 m ρ c) _ ((Walk.v29_W4 m ρ c).trans (v29_W3 m ρ c))

/-- After the first scale call: the messages. -/
theorem v39_W6 : W6 m ρ c (Proc.devRef .tc main_v39) = val_main_v40 (a0 m c) (a1 m c) (a2 m c) := by
  have hA : Scale1.inA (V5 m ρ) c = val_main_v37 (a0 m c) (a1 m c) (a2 m c) := v37_W5 m ρ c
  have hB : Scale1.inB (V5 m ρ) c = shapeCast S1700000x1 (val_main_v29 (a1 m c)) shapeCasts_S1700000_S1700000x1 := v38_W5 m ρ c
  refine (W6_arr m ρ c 2).trans ?_
  exact Bridges.scale_stage (val_main_v37 (a0 m c) (a1 m c) (a2 m c)) (val_main_v29 (a1 m c)) (Scale1.outC (V5 m ρ) c)
    (fun e j => by rw [← hA, ← hB]; exact Scale1.value (V5 m ρ) c e j)

/-- The messages summed into their target nodes. -/
theorem v42_W7 : W7 m ρ c (Proc.devRef .tc main_v42) = val_main_v43 (a0 m c) (a1 m c) (a2 m c) :=
  HostStages.host2_v42 (W6 m ρ c) _ (a1 m c) (v39_W6 m ρ c) ((Walk.v6_W6 m ρ c).trans (v6_W3 m ρ c))

/-- The first bias as a row. -/
theorem v43_W7 : W7 m ρ c (Proc.devRef .tc main_v43) = shapeCast S1x128 (a3 m c) shapeCasts_S128_S1x128 :=
  HostStages.host2_v43 (W6 m ρ c) _ (Walk.arg3_W6 m ρ c)

/-- After the first bias call: the first layer's output. -/
theorem v44_W8 : W8 m ρ c (Proc.devRef .tc main_v44) = val_main_v47 (a0 m c) (a1 m c) (a2 m c) (a3 m c) := by
  have hA : BiasRelu2.inA (V7 m ρ) c = val_main_v43 (a0 m c) (a1 m c) (a2 m c) := v42_W7 m ρ c
  have hB : BiasRelu2.inB (V7 m ρ) c = shapeCast S1x128 (a3 m c) shapeCasts_S128_S1x128 := v43_W7 m ρ c
  refine (W8_arr m ρ c 2).trans ?_
  exact Bridges.bias_relu_stage (val_main_v43 (a0 m c) (a1 m c) (a2 m c)) (a3 m c) (BiasRelu2.outC (V7 m ρ) c)
    (fun p q => by rw [← hA, ← hB]; exact BiasRelu2.value (V7 m ρ) c p q)

/-! ## The second layer -/

/-- After the second product call: the first layer's output times the second weights. -/
theorem v45_W9 : W9 m ρ c (Proc.devRef .tc main_v45) = val_main_v48 (a0 m c) (a1 m c) (a2 m c) (a3 m c) (a4 m c) := by
  have hA : Matmul3.inA (V8 m ρ) c = val_main_v47 (a0 m c) (a1 m c) (a2 m c) (a3 m c) := v44_W8 m ρ c
  have hB : Matmul3.inB (V8 m ρ) c = a4 m c := Walk.arg4_W8 m ρ c
  refine (W9_arr m ρ c 2).trans ?_
  exact Bridges.dot_stage (val_main_v47 (a0 m c) (a1 m c) (a2 m c) (a3 m c)) (a4 m c) (Matmul3.outC (V8 m ρ) c) (fun p q => by rw [← hA, ← hB]; exact Matmul3.value (V8 m ρ) c p q)

theorem v52_W10 : W10 m ρ c (Proc.devRef .tc main_v52) = val_main_v55 (a0 m c) (a1 m c) (a2 m c) (a3 m c) (a4 m c) :=
  HostStages.host4_v52 (W9 m ρ c) _ (a1 m c) (v45_W9 m ρ c) ((Walk.v5_W9 m ρ c).trans (v5_W3 m ρ c))

theorem v53_W10 : W10 m ρ c (Proc.devRef .tc main_v53) = shapeCast S1700000x1 (val_main_v29 (a1 m c)) shapeCasts_S1700000_S1700000x1 :=
  HostStages.host4_v53 (W9 m ρ c) _ ((Walk.v29_W9 m ρ c).trans (v29_W3 m ρ c))

theorem v54_W11 : W11 m ρ c (Proc.devRef .tc main_v54) = val_main_v58 (a0 m c) (a1 m c) (a2 m c) (a3 m c) (a4 m c) := by
  have hA : Scale4.inA (V10 m ρ) c = val_main_v55 (a0 m c) (a1 m c) (a2 m c) (a3 m c) (a4 m c) := v52_W10 m ρ c
  have hB : Scale4.inB (V10 m ρ) c = shapeCast S1700000x1 (val_main_v29 (a1 m c)) shapeCasts_S1700000_S1700000x1 := v53_W10 m ρ c
  refine (W11_arr m ρ c 2).trans ?_
  exact Bridges.scale_stage (val_main_v55 (a0 m c) (a1 m c) (a2 m c) (a3 m c) (a4 m c)) (val_main_v29 (a1 m c)) (Scale4.outC (V10 m ρ) c)
    (fun e j => by rw [← hA, ← hB]; exact Scale4.value (V10 m ρ) c e j)

theorem v57_W12 : W12 m ρ c (Proc.devRef .tc main_v57) = val_main_v61 (a0 m c) (a1 m c) (a2 m c) (a3 m c) (a4 m c) :=
  HostStages.host5_v57 (W11 m ρ c) _ (a1 m c) (v54_W11 m ρ c) ((Walk.v6_W11 m ρ c).trans (v6_W3 m ρ c))

theorem v58_W12 : W12 m ρ c (Proc.devRef .tc main_v58) = shapeCast S1x128 (a5 m c) shapeCasts_S128_S1x128 :=
  HostStages.host5_v58 (W11 m ρ c) _ (Walk.arg5_W11 m ρ c)

/-- After the second bias call: the second layer's output. -/
theorem v59_W13 : W13 m ρ c (Proc.devRef .tc main_v59) = val_main_v65 (a0 m c) (a1 m c) (a2 m c) (a3 m c) (a4 m c) (a5 m c) := by
  have hA : BiasRelu5.inA (V12 m ρ) c = val_main_v61 (a0 m c) (a1 m c) (a2 m c) (a3 m c) (a4 m c) := v57_W12 m ρ c
  have hB : BiasRelu5.inB (V12 m ρ) c = shapeCast S1x128 (a5 m c) shapeCasts_S128_S1x128 := v58_W12 m ρ c
  refine (W13_arr m ρ c 2).trans ?_
  exact Bridges.bias_relu_stage (val_main_v61 (a0 m c) (a1 m c) (a2 m c) (a3 m c) (a4 m c)) (a5 m c) (BiasRelu5.outC (V12 m ρ) c)
    (fun p q => by rw [← hA, ← hB]; exact BiasRelu5.value (V12 m ρ) c p q)

/-! ## The result -/

/-- At the last boundary the result buffer holds the reference's result of the launch contents. -/
theorem v60_W14 : W14 m ρ c (Proc.devRef .tc main_v60) = val_main_v66 (a0 m c) (a1 m c) (a2 m c) (a3 m c) (a4 m c) (a5 m c) :=
  HostStages.host6_v60 (W13 m ρ c) _ _ ((Walk.v44_W13 m ρ c).trans (v44_W8 m ρ c)) (v59_W13 m ρ c)

end Cert.KernelIdeal.Layers

end
-- ==== Proof.lean ====
/-
  A two-layer graph convolution network, kernel against reference, equal over the extended reals.

  Both programs compute, from node features x, an edge list and two layers' weights and biases,
  h1 = relu(Â (x W1) + b1), h2 = relu(Â (h1 W2) + b2) and return [h1 | h2], where Â sums, into each target node, the
  source nodes' rows scaled by the symmetric degree normalisation of the edge (self loops appended). The kernel runs
  the three dense pieces of each layer as tiled pallas_calls — the product x·W by blocks of 5000 rows, the scaling of
  the 1.7 million gathered rows by blocks of 10000, the bias-and-relu by blocks of 5000 rows — and the gathers, the
  scatter-adds and the degree computation as the reference's own host operations. At the ideal instance a block of
  rows of a product is the product's block of rows (the same finite sums, term by term; rounding the factors to bf16
  is the identity), and the two pointwise pieces are pointwise; so at every boundary of @main the kernel's buffer
  holds the reference's stage (Proof/Layers.lean), and no law of the extended reals beyond reading sums term by term
  is used: the precondition is never opened.

  The frames of the two kernel programs are the generated ones; the reference's frame is its run with the result
  dropped; the ideal pass rewrote nothing, so there is nothing to preserve.
-/
import proofs.«175264_j42640435314985_1_alg».proof.Defs
import proofs.«175264_j42640435314985_1_alg».proof.Proof.Gen.Kernel
import proofs.«175264_j42640435314985_1_alg».proof.Proof.Gen.Kernel.Frame
import proofs.«175264_j42640435314985_1_alg».proof.Proof.Gen.KernelIdeal
import proofs.«175264_j42640435314985_1_alg».proof.Proof.Gen.KernelIdeal.Frame
import proofs.«175264_j42640435314985_1_alg».proof.Proof.Gen.ReferenceIdeal
import proofs.«175264_j42640435314985_1_alg».proof.Proof.Gen.Pre_finite_inputs
import proofs.«175264_j42640435314985_1_alg».proof.Proof.KernelRun
import proofs.«175264_j42640435314985_1_alg».proof.Proof.RefRunH
import proofs.«175264_j42640435314985_1_alg».proof.Proof.RefRead
import proofs.«175264_j42640435314985_1_alg».proof.Proof.Layers

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run, the result forgotten. -/
theorem frame_reference : Cert.frame_ReferenceIdeal := fun m ρ _ =>
  (θ_run Cert.ReferenceIdeal.defs _ _).mono (fun _ h c => (h c).2) (Cert.ReferenceIdeal.RunH.run (F := Ideal) m ρ)

/-- Both runs end with the result buffer at the reference's last stage of the launch contents: the kernel's by the
    boundary-by-boundary reading of its @main, the reference's by its run read stage by stage, the arguments' agreement
    rewritten. -/
theorem algebraic : Cert.algebraic_KernelIdeal_ReferenceIdeal := by
  intro m ρ m' ρ' _ hagree
  refine ⟨fun c => Cert.ReferenceIdeal.ReadP.val_main_v66 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Layers.v60_W14 m ρ c), (h c).2⟩)
      (Cert.KernelIdeal.Out.run_result (F := Ideal) m ρ)
  · refine (θ_run Cert.ReferenceIdeal.defs _ _).mono (fun _ h c => ⟨(h c).1.trans ?_, (h c).2⟩)
      (Cert.ReferenceIdeal.RunH.run (F := Ideal) m' ρ')
    rw [(hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
